-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x1 : Shape := ⟨3, ![16, 4096, 1]⟩
abbrev S22x512 : Shape := ⟨2, ![22, 512]⟩
abbrev S4096x512 : Shape := ⟨2, ![4096, 512]⟩
abbrev S22x4096 : Shape := ⟨2, ![22, 4096]⟩
abbrev S22x22 : Shape := ⟨2, ![22, 22]⟩
abbrev S_ : Shape := ⟨0, ![]⟩

class Facts : Prop where
  bcast_S_S16x4096x1 : S_.BroadcastsInDim S16x4096x1 (![] : Fin 0 → Fin S16x4096x1.rank)
  reducesTo_S16x4096x1_S_d0_1_2 : S16x4096x1.ReducesTo [0, 1, 2] S_
  h_S_ : 0 < S_.numel
  bcast_S_S22x512 : S_.BroadcastsInDim S22x512 (![] : Fin 0 → Fin S22x512.rank)
  reducesTo_S22x512_S_d0_1 : S22x512.ReducesTo [0, 1] S_
  bcast_S_S4096x512 : S_.BroadcastsInDim S4096x512 (![] : Fin 0 → Fin S4096x512.rank)
  reducesTo_S4096x512_S_d0_1 : S4096x512.ReducesTo [0, 1] S_
  bcast_S_S22x4096 : S_.BroadcastsInDim S22x4096 (![] : Fin 0 → Fin S22x4096.rank)
  reducesTo_S22x4096_S_d0_1 : S22x4096.ReducesTo [0, 1] S_
  bcast_S_S22x22 : S_.BroadcastsInDim S22x22 (![] : Fin 0 → Fin S22x22.rank)
  reducesTo_S22x22_S_d0_1 : S22x22.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg0 : IVec S16x4096 32) (main_arg6 : FVec F S22x22 .f32) (main_v13 : IVec S_ 1) (main_v16 : IVec S22x4096 1) : IVec S_ 1 :=
  let main_c_5 : IVec S_ 1 := constantI S_ 1 1#1
  let main_v17 : IVec S_ 1 := (fun x v => Host.reduce IntOp.andi x v reducesTo_S22x4096_S_d0_1 h_S_) main_v16 main_c_5
  let main_v18 : IVec S_ 1 := andi main_v13 main_v17
  let main_v19 : FVec F S22x22 .f32 := Host.absf main_arg6
  let main_cst_6 : FVec F S_ .f32 := constant S_ .f32 0x7F800000#32
  let main_v20 : FVec F S22x22 .f32 := broadcastInDim S22x22 ![] bcast_S_S22x22 main_cst_6
  let main_v21 : IVec S22x22 1 := cmpf .olt main_v19 main_v20
  let main_c_7 : IVec S_ 1 := constantI S_ 1 1#1
  let main_v22 : IVec S_ 1 := (fun x v => Host.reduce IntOp.andi x v reducesTo_S22x22_S_d0_1 h_S_) main_v21 main_c_7
  let main_v23 : IVec S_ 1 := andi main_v18 main_v22
  let main_c_8 : IVec S_ 32 := constantI S_ 32 0#32
  let main_v24 : IVec S16x4096 32 := broadcastInDim S16x4096 ![] bcast_S_S16x4096 main_c_8
  let main_v25 : IVec S16x4096 1 := cmpi .sge main_arg0 main_v24
  let main_c_9 : IVec S_ 1 := constantI S_ 1 1#1
  let main_v26 : IVec S_ 1 := (fun x v => Host.reduce IntOp.andi x v reducesTo_S16x4096_S_d0_1 h_S_) main_v25 main_c_9
  let main_v27 : IVec S_ 1 := andi main_v23 main_v26
  main_v27

def fn {F : FTy → Type} [FloatOps F] (main_arg0 : IVec S16x4096 32) (main_arg1 : IVec S16x4096 32) (main_arg2 : FVec F S16x4096x1 .f32) (main_arg3 : FVec F S22x512 .f32) (main_arg4 : FVec F S4096x512 .f32) (main_arg5 : FVec F S22x4096 .f32) (main_arg6 : FVec F S22x22 .f32) : IVec S_ 1 :=
  let main_v0 : FVec F S16x4096x1 .f32 := Host.absf main_arg2
  let main_cst : FVec F S_ .f32 := constant S_ .f32 0x7F800000#32
  let main_v1 : FVec F S16x4096x1 .f32 := broadcastInDim S16x4096x1 ![] bcast_S_S16x4096x1 main_cst
  let main_v2 : IVec S16x4096x1 1 := cmpf .olt main_v0 main_v1
  let main_c : IVec S_ 1 := constantI S_ 1 1#1
  let main_v3 : IVec S_ 1 := (fun x v => Host.reduce IntOp.andi x v reducesTo_S16x4096x1_S_d0_1_2 h_S_) main_v2 main_c
  let main_v4 : FVec F S22x512 .f32 := Host.absf main_arg3
  let main_cst_0 : FVec F S_ .f32 := constant S_ .f32 0x7F800000#32
  let main_v5 : FVec F S22x512 .f32 := broadcastInDim S22x512 ![] bcast_S_S22x512 main_cst_0
  let main_v6 : IVec S22x512 1 := cmpf .olt main_v4 main_v5
  let main_c_1 : IVec S_ 1 := constantI S_ 1 1#1
  let main_v7 : IVec S_ 1 := (fun x v => Host.reduce IntOp.andi x v reducesTo_S22x512_S_d0_1 h_S_) main_v6 main_c_1
  let main_v8 : IVec S_ 1 := andi main_v3 main_v7
  let main_v9 : FVec F S4096x512 .f32 := Host.absf main_arg4
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S22x4096 .f32 := Host.absf main_arg5
  let main_cst_4 : FVec F S_ .f32 := constant S_ .f32 0x7F800000#32
  let main_v15 : FVec F S22x4096 .f32 := broadcastInDim S22x4096 ![] bcast_S_S22x4096 main_cst_4
  let main_v16 : IVec S22x4096 1 := cmpf .olt main_v14 main_v15
  fn_part1 (F := F) main_arg0 main_arg6 main_v13 main_v16
-- ==== Kernel.lean ====
abbrev S16x4096 : Shape := ⟨2, ![16, 4096]⟩
abbrev S16x4096x1 : Shape := ⟨3, ![16, 4096, 1]⟩
abbrev S22x512 : Shape := ⟨2, ![22, 512]⟩
abbrev S4096x512 : Shape := ⟨2, ![4096, 512]⟩
abbrev S22x4096 : Shape := ⟨2, ![22, 4096]⟩
abbrev S22x22 : Shape := ⟨2, ![22, 22]⟩
abbrev S_ : Shape := ⟨0, ![]⟩
abbrev S16x4095 : Shape := ⟨2, ![16, 4095]⟩
abbrev S16x1 : Shape := ⟨2, ![16, 1]⟩
abbrev S16x4096x2 : Shape := ⟨3, ![16, 4096, 2]⟩
abbrev S4096x22 : Shape := ⟨2, ![4096, 22]⟩
abbrev S16x4096x512 : Shape := ⟨3, ![16, 4096, 512]⟩
abbrev S1x2048x2 : Shape := ⟨3, ![1, 2048, 2]⟩
abbrev S2048x512 : Shape := ⟨2, ![2048, 512]⟩
abbrev S2048x22 : Shape := ⟨2, ![2048, 22]⟩
abbrev S1x2048x512 : Shape := ⟨3, ![1, 2048, 512]⟩
abbrev S2048x2 : Shape := ⟨2, ![2048, 2]⟩
abbrev S2048x1 : Shape := ⟨2, ![2048, 1]⟩
abbrev S2048 : Shape := ⟨1, ![2048]⟩

abbrev nBuf : Space → Nat
  | .hbm => 35
  | .vmem => 10
  | .smem => 0
  | _ => 0

abbrev bufTy : (tb : Table) → Fin (tcTables nBuf tb) → BufTy
  | .hbm, ⟨0, _⟩ => ⟨S16x4096, .i32⟩
  | .hbm, ⟨1, _⟩ => ⟨S16x4096, .i32⟩
  | .hbm, ⟨2, _⟩ => ⟨S16x4096x1, .f32⟩
  | .hbm, ⟨3, _⟩ => ⟨S22x512, .f32⟩
  | .hbm, ⟨4, _⟩ => ⟨S4096x512, .f32⟩
  | .hbm, ⟨5, _⟩ => ⟨S22x4096, .f32⟩
  | .hbm, ⟨6, _⟩ => ⟨S22x22, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x4096, .i32⟩
  | .hbm, ⟨11, _⟩ => ⟨S16x4096, .i32⟩
  | .hbm, ⟨12, _⟩ => ⟨S_, .i32⟩
  | .hbm, ⟨13, _⟩ => ⟨S16x4096, .i32⟩
  | .hbm, ⟨14, _⟩ => ⟨S16x4096, .i32⟩
  | .hbm, ⟨15, _⟩ => ⟨S16x4095, .i32⟩
  | .hbm, ⟨16, _⟩ => ⟨S16x1, .i32⟩
  | .hbm, ⟨17, _⟩ => ⟨S_, .i32⟩
  | .hbm, ⟨18, _⟩ => ⟨S16x1, .i32⟩
  | .hbm, ⟨19, _⟩ => ⟨S16x4096, .i32⟩
  | .hbm, ⟨20, _⟩ => ⟨S16x4096x1, .i32⟩
  | .hbm, ⟨21, _⟩ => ⟨S16x4096x1, .i32⟩
  | .hbm, ⟨22, _⟩ => ⟨S16x4096x2, .i32⟩
  | .hbm, ⟨23, _⟩ => ⟨S4096x22, .f32⟩
  | .hbm, ⟨24, _⟩ => ⟨S16x4096x512, .f32⟩
  | .hbm, ⟨25, _⟩ => ⟨S_, .i32⟩
  | .hbm, ⟨26, _⟩ => ⟨S16x4096, .i32⟩
  | .hbm, ⟨27, _⟩ => ⟨S16x4096, .i1⟩
  | .hbm, ⟨28, _⟩ => ⟨S_, .i32⟩
  | .hbm, ⟨29, _⟩ => ⟨S16x4096, .i32⟩
  | .hbm, ⟨30, _⟩ => ⟨S16x4096, .i1⟩
  | .hbm, ⟨31, _⟩ => ⟨S16x4096, .i1⟩
  | .hbm, ⟨32, _⟩ => ⟨S16x4096, .f32⟩
  | .hbm, ⟨33, _⟩ => ⟨S16x4096x1, .f32⟩
  | .hbm, ⟨34, _⟩ => ⟨S16x4096x2, .f32⟩
  | .local _ .vmem, ⟨0, _⟩ => ⟨S1x2048x2, .i32⟩
  | .local _ .vmem, ⟨1, _⟩ => ⟨S1x2048x2, .i32⟩
  | .local _ .vmem, ⟨2, _⟩ => ⟨S2048x512, .f32⟩
  | .local _ .vmem, ⟨3, _⟩ => ⟨S2048x512, .f32⟩
  | .local _ .vmem, ⟨4, _⟩ => ⟨S2048x22, .f32⟩
  | .local _ .vmem, ⟨5, _⟩ => ⟨S2048x22, .f32⟩
  | .local _ .vmem, ⟨6, _⟩ => ⟨S22x512, .f32⟩
  | .local _ .vmem, ⟨7, _⟩ => ⟨S22x22, .f32⟩
  | .local _ .vmem, ⟨8, _⟩ => ⟨S1x2048x512, .f32⟩
  | .local _ .vmem, ⟨9, _⟩ => ⟨S1x2048x512, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x22 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S22x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x22 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x4096 : S_.BroadcastsInDim S16x4096 (![] : Fin 0 → Fin S16x4096.rank)
  slices_S16x4096_S16x4095_0_1 : S16x4096.Slices ![0, 1] S16x4095
  slices_S16x4096_S16x1_0_0 : S16x4096.Slices ![0, 0] S16x1
  bcast_S_S16x1 : S_.BroadcastsInDim S16x1 (![] : Fin 0 → Fin S16x1.rank)
  concatenates_S16x4095_S16x1_S16x4096_d1 : Shape.Concatenates [S16x4095, S16x1] S16x4096 1
  bcast_S16x4096_S16x4096x1_0_1 : S16x4096.BroadcastsInDim S16x4096x1 (![0, 1] : Fin 2 → Fin S16x4096x1.rank)
  concatenates_S16x4096x1_S16x4096x1_S16x4096x2_d2 : Shape.Concatenates [S16x4096x1, S16x4096x1] S16x4096x2 2
  transposes_S22x4096_S4096x22_1_0 : S22x4096.Transposes [1, 0] S4096x22
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  slices_S2048x2_o0_0_S2048x1 : S2048x2.Slices ![0, 0] S2048x1
  slices_S2048x2_o0_1_S2048x1 : S2048x2.Slices ![0, 1] S2048x1
  iota_S2048x22_d1_w32 : S2048x22.Iotas .tc 32 [1]
  broadcasts_S2048x1_S2048x22 : S2048x1.Broadcasts S2048x22
  natLt_1_32 : 1 < 32
  inb_S22x512_S22x512_0_0 : ∀ a, (![0, 0] : Fin 2 → Nat) a + S22x512.size a ≤ S22x512.size a
  h_S22x512 : 0 < S22x512.numel
  inb_S2048x512_S2048x512_0_0 : ∀ a, (![0, 0] : Fin 2 → Nat) a + S2048x512.size a ≤ S2048x512.size a
  h_S2048x512 : 0 < S2048x512.numel
  broadcasts_S2048x1_S2048x512 : S2048x1.Broadcasts S2048x512
  inb_S2048x22_S2048x22_0_0 : ∀ a, (![0, 0] : Fin 2 → Nat) a + S2048x22.size a ≤ S2048x22.size a
  h_S2048x22 : 0 < S2048x22.numel
  shapeCasts_S2048x22_S2048x22 : S2048x22.ShapeCasts S2048x22
  reduces_S2048x22_S2048 : S2048x22.Reduces [1] S2048
  shapeCasts_S2048_S2048x1 : S2048.ShapeCasts S2048x1
  inb_S22x22_S22x22_0_0 : ∀ a, (![0, 0] : Fin 2 → Nat) a + S22x22.size a ≤ S22x22.size a
  h_S22x22 : 0 < S22x22.numel
  iota_S2048x1_d0_w32 : S2048x1.Iotas .tc 32 [0]
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x22_S22x512_S2048x512_1_0_0_1_n_n_wf : DotDims.WF S2048x22 S22x512 S2048x512 [1] [0] [0] [1] [] []
  dot_S2048x22_S22x22_S2048x22_1_0_0_1_n_n_wf : DotDims.WF S2048x22 S22x22 S2048x22 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S16x4096x2.size a
  hwx0_0 : ∀ i : grid0.Coords, EltTy.bits .i32 = 32 ∨ (Rect.block (s := S16x4096x2) S1x2048x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .f32 = 32 ∨ (Rect.block (s := S4096x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x22.size a ≤ S4096x22.size a
  hwx0_2 : ∀ i : grid0.Coords, EltTy.bits .f32 = 32 ∨ (Rect.block (s := S4096x22) S2048x22.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S22x512.size a ≤ S22x512.size a
  hwx0_3 : ∀ i : grid0.Coords, EltTy.bits .f32 = 32 ∨ (Rect.block (s := S22x512) S22x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S22x22.size a ≤ S22x22.size a
  hwx0_4 : ∀ i : grid0.Coords, EltTy.bits .f32 = 32 ∨ (Rect.block (s := S22x22) S22x22.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x512.size a ≤ S16x4096x512.size a
  hwx0_5 : ∀ i : grid0.Coords, EltTy.bits .f32 = 32 ∨ (Rect.block (s := S16x4096x512) S1x2048x512.size (cc0_transform_5 i) (hinb0_5 i)).WholeWords (EltTy.packing .f32)

variable [Facts₀]

def dot_S2048x22_S22x512_S2048x512_1_0_0_1_n_n : DotDims S2048x22 S22x512 S2048x512 where
  lhsContracting := [1]
  rhsContracting := [0]
  lhsNonContracting := [0]
  rhsNonContracting := [1]
  lhsBatch := []
  rhsBatch := []
  wf := dot_S2048x22_S22x512_S2048x512_1_0_0_1_n_n_wf
def dot_S2048x22_S22x22_S2048x22_1_0_0_1_n_n : DotDims S2048x22 S22x22 S2048x22 where
  lhsContracting := [1]
  rhsContracting := [0]
  lhsNonContracting := [0]
  rhsNonContracting := [1]
  lhsBatch := []
  rhsBatch := []
  wf := dot_S2048x22_S22x22_S2048x22_1_0_0_1_n_n_wf

abbrev win0_0 : Pipeline.Window sig grid0 :=
  Pipeline.Window.ofSpec (Memref.whole main_v7) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x22.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S22x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S22x22.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x1 : Shape := ⟨3, ![16, 4096, 1]⟩
abbrev S22x512 : Shape := ⟨2, ![22, 512]⟩
abbrev S4096x512 : Shape := ⟨2, ![4096, 512]⟩
abbrev S22x4096 : Shape := ⟨2, ![22, 4096]⟩
abbrev S22x22 : Shape := ⟨2, ![22, 22]⟩
abbrev S_ : Shape := ⟨0, ![]⟩
abbrev S16x4096x512 : Shape := ⟨3, ![16, 4096, 512]⟩
abbrev S1x4096x512 : Shape := ⟨3, ![1, 4096, 512]⟩
abbrev S4096 : Shape := ⟨1, ![4096]⟩
abbrev S1x4096 : Shape := ⟨2, ![1, 4096]⟩
abbrev S16x4096x2 : Shape := ⟨3, ![16, 4096, 2]⟩
abbrev S16x4095 : Shape := ⟨2, ![16, 4095]⟩
abbrev S16x4095x1 : Shape := ⟨3, ![16, 4095, 1]⟩
abbrev S16x4095x2 : Shape := ⟨3, ![16, 4095, 2]⟩

abbrev nBuf : Space → Nat
  | .hbm => 87
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S16x4096, .i32⟩
  | .hbm, ⟨2, _⟩ => ⟨S16x4096x1, .f32⟩
  | .hbm, ⟨3, _⟩ => ⟨S22x512, .f32⟩
  | .hbm, ⟨4, _⟩ => ⟨S4096x512, .f32⟩
  | .hbm, ⟨5, _⟩ => ⟨S22x4096, .f32⟩
  | .hbm, ⟨6, _⟩ => ⟨S22x22, .f32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S_, .i32⟩
  | .hbm, ⟨11, _⟩ => ⟨S16x4096, .i32⟩
  | .hbm, ⟨12, _⟩ => ⟨S16x4096, .i1⟩
  | .hbm, ⟨13, _⟩ => ⟨S16x4096, .i1⟩
  | .hbm, ⟨14, _⟩ => ⟨S16x4096x1, .i1⟩
  | .hbm, ⟨15, _⟩ => ⟨S16x4096x1, .f32⟩
  | .hbm, ⟨16, _⟩ => ⟨S_, .i32⟩
  | .hbm, ⟨17, _⟩ => ⟨S16x4096, .i32⟩
  | .hbm, ⟨18, _⟩ => ⟨S16x4096, .i1⟩
  | .hbm, ⟨19, _⟩ => ⟨S_, .i32⟩
  | .hbm, ⟨20, _⟩ => ⟨S16x4096, .i32⟩
  | .hbm, ⟨21, _⟩ => ⟨S16x4096, .i32⟩
  | .hbm, ⟨22, _⟩ => ⟨S16x4096, .i32⟩
  | .hbm, ⟨23, _⟩ => ⟨S16x4096x1, .i32⟩
  | .hbm, ⟨24, _⟩ => ⟨S16x4096x512, .f32⟩
  | .hbm, ⟨25, _⟩ => ⟨S_, .i32⟩
  | .hbm, ⟨26, _⟩ => ⟨S16x4096, .i32⟩
  | .hbm, ⟨27, _⟩ => ⟨S16x4096, .i1⟩
  | .hbm, ⟨28, _⟩ => ⟨S16x4096x1, .i1⟩
  | .hbm, ⟨29, _⟩ => ⟨S1x4096x512, .f32⟩
  | .hbm, ⟨30, _⟩ => ⟨S_, .f32⟩
  | .hbm, ⟨31, _⟩ => ⟨S_, .f32⟩
  | .hbm, ⟨32, _⟩ => ⟨S16x4096x512, .i1⟩
  | .hbm, ⟨33, _⟩ => ⟨S16x4096x512, .f32⟩
  | .hbm, ⟨34, _⟩ => ⟨S16x4096x512, .f32⟩
  | .hbm, ⟨35, _⟩ => ⟨S16x4096x512, .f32⟩
  | .hbm, ⟨36, _⟩ => ⟨S4096, .i32⟩
  | .hbm, ⟨37, _⟩ => ⟨S1x4096, .i32⟩
  | .hbm, ⟨38, _⟩ => ⟨S_, .i32⟩
  | .hbm, ⟨39, _⟩ => ⟨S16x4096, .i32⟩
  | .hbm, ⟨40, _⟩ => ⟨S16x4096, .i1⟩
  | .hbm, ⟨41, _⟩ => ⟨S_, .i32⟩
  | .hbm, ⟨42, _⟩ => ⟨S16x4096, .i32⟩
  | .hbm, ⟨43, _⟩ => ⟨S16x4096, .i32⟩
  | .hbm, ⟨44, _⟩ => ⟨S16x4096, .i32⟩
  | .hbm, ⟨45, _⟩ => ⟨S_, .i32⟩
  | .hbm, ⟨46, _⟩ => ⟨S1x4096, .i32⟩
  | .hbm, ⟨47, _⟩ => ⟨S1x4096, .i1⟩
  | .hbm, ⟨48, _⟩ => ⟨S_, .i32⟩
  | .hbm, ⟨49, _⟩ => ⟨S1x4096, .i32⟩
  | .hbm, ⟨50, _⟩ => ⟨S1x4096, .i32⟩
  | .hbm, ⟨51, _⟩ => ⟨S1x4096, .i32⟩
  | .hbm, ⟨52, _⟩ => ⟨S16x4096, .i32⟩
  | .hbm, ⟨53, _⟩ => ⟨S16x4096x1, .i32⟩
  | .hbm, ⟨54, _⟩ => ⟨S16x4096x1, .i32⟩
  | .hbm, ⟨55, _⟩ => ⟨S16x4096x2, .i32⟩
  | .hbm, ⟨56, _⟩ => ⟨S16x4096, .f32⟩
  | .hbm, ⟨57, _⟩ => ⟨S16x4095, .i32⟩
  | .hbm, ⟨58, _⟩ => ⟨S16x4095, .i32⟩
  | .hbm, ⟨59, _⟩ => ⟨S_, .i32⟩
  | .hbm, ⟨60, _⟩ => ⟨S16x4095, .i32⟩
  | .hbm, ⟨61, _⟩ => ⟨S16x4095, .i1⟩
  | .hbm, ⟨62, _⟩ => ⟨S_, .i32⟩
  | .hbm, ⟨63, _⟩ => ⟨S16x4095, .i32⟩
  | .hbm, ⟨64, _⟩ => ⟨S16x4095, .i32⟩
  | .hbm, ⟨65, _⟩ => ⟨S16x4095, .i32⟩
  | .hbm, ⟨66, _⟩ => ⟨S_, .i32⟩
  | .hbm, ⟨67, _⟩ => ⟨S16x4095, .i32⟩
  | .hbm, ⟨68, _⟩ => ⟨S16x4095, .i1⟩
  | .hbm, ⟨69, _⟩ => ⟨S_, .i32⟩
  | .hbm, ⟨70, _⟩ => ⟨S16x4095, .i32⟩
  | .hbm, ⟨71, _⟩ => ⟨S16x4095, .i32⟩
  | .hbm, ⟨72, _⟩ => ⟨S16x4095, .i32⟩
  | .hbm, ⟨73, _⟩ => ⟨S16x4095x1, .i32⟩
  | .hbm, ⟨74, _⟩ => ⟨S16x4095x1, .i32⟩
  | .hbm, ⟨75, _⟩ => ⟨S16x4095x2, .i32⟩
  | .hbm, ⟨76, _⟩ => ⟨S16x4095, .f32⟩
  | .hbm, ⟨77, _⟩ => ⟨S_, .i32⟩
  | .hbm, ⟨78, _⟩ => ⟨S_, .f32⟩
  | .hbm, ⟨79, _⟩ => ⟨S16x4096, .f32⟩
  | .hbm, ⟨80, _⟩ => ⟨S16x4096x1, .f32⟩
  | .hbm, ⟨81, _⟩ => ⟨S16x4096x1, .f32⟩
  | .hbm, ⟨82, _⟩ => ⟨S16x4096x1, .f32⟩
  | .hbm, ⟨83, _⟩ => ⟨S16x4096x512, .f32⟩
  | .hbm, ⟨84, _⟩ => ⟨S16x4096x512, .f32⟩
  | .hbm, ⟨85, _⟩ => ⟨S16x4096x512, .f32⟩
  | .hbm, ⟨86, _⟩ => ⟨S16x4096x2, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S4096x512_S1x4096x512_1_2 : S4096x512.BroadcastsInDim S1x4096x512 (![1, 2] : Fin 2 → Fin S1x4096x512.rank)
  bcast_S16x4096x1_S16x4096x512_0_1_2 : S16x4096x1.BroadcastsInDim S16x4096x512 (![0, 1, 2] : Fin 3 → Fin S16x4096x512.rank)
  bcast_S1x4096x512_S16x4096x512_0_1_2 : S1x4096x512.BroadcastsInDim S16x4096x512 (![0, 1, 2] : Fin 3 → Fin S16x4096x512.rank)
  bcast_S_S16x4096x512 : S_.BroadcastsInDim S16x4096x512 (![] : Fin 0 → Fin S16x4096x512.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16x4096_0_1 : S1x4096.BroadcastsInDim S16x4096 (![0, 1] : Fin 2 → Fin S16x4096.rank)
  concatenates_S16x4096x1_S16x4096x1_S16x4096x2_d2 : Shape.Concatenates [S16x4096x1, S16x4096x1] S16x4096x2 2
  slices_S16x4096_S16x4095_0_0 : S16x4096.Slices ![0, 0] S16x4095
  slices_S16x4096_S16x4095_0_1 : S16x4096.Slices ![0, 1] S16x4095
  bcast_S_S16x4095 : S_.BroadcastsInDim S16x4095 (![] : Fin 0 → Fin S16x4095.rank)
  bcast_S16x4095_S16x4095x1_0_1 : S16x4095.BroadcastsInDim S16x4095x1 (![0, 1] : Fin 2 → Fin S16x4095x1.rank)
  concatenates_S16x4095x1_S16x4095x1_S16x4095x2_d2 : Shape.Concatenates [S16x4095x1, S16x4095x1] S16x4095x2 2
  pads_S16x4095_S16x4096_000_010 : S16x4095.Pads (![0, 0] : Fin 2 → Nat) ![0, 1] ![0, 0] S16x4096
  h_S_ : 0 < S_.numel
  gather_S22x512_S16x4096x1_S16x4096x512_2_0_n_n_0_2_1512_wf : GatherDims.WF S22x512 S16x4096x1 S16x4096x512 [2] [0] [] [0] [] 2 ![1, 512]
  gather_S22x4096_S16x4096x2_S16x4096_n_01_n_n_01_2_11_wf : GatherDims.WF S22x4096 S16x4096x2 S16x4096 [] [0, 1] [] [0, 1] [] 2 ![1, 1]
  gather_S22x22_S16x4095x2_S16x4095_n_01_n_n_01_2_11_wf : GatherDims.WF S22x22 S16x4095x2 S16x4095 [] [0, 1] [] [0, 1] [] 2 ![1, 1]

variable [Facts₀]

def gather_S22x512_S16x4096x1_S16x4096x512_2_0_n_n_0_2_1512 : GatherDims S22x512 S16x4096x1 S16x4096x512 where
  offsetDims := [2]
  collapsedSliceDims := [0]
  operandBatchingDims := []
  startIndicesBatchingDims := []
  startIndexMap := [0]
  indexVectorDim := 2
  sliceSizes := ![1, 512]
  wf := gather_S22x512_S16x4096x1_S16x4096x512_2_0_n_n_0_2_1512_wf
def gather_S22x4096_S16x4096x2_S16x4096_n_01_n_n_01_2_11 : GatherDims S22x4096 S16x4096x2 S16x4096 where
  offsetDims := []
  collapsedSliceDims := [0, 1]
  operandBatchingDims := []
  startIndicesBatchingDims := []
  startIndexMap := [0, 1]
  indexVectorDim := 2
  sliceSizes := ![1, 1]
  wf := gather_S22x4096_S16x4096x2_S16x4096_n_01_n_n_01_2_11_wf
def gather_S22x22_S16x4095x2_S16x4095_n_01_n_n_01_2_11 : GatherDims S22x22 S16x4095x2 S16x4095 where
  offsetDims := []
  collapsedSliceDims := [0, 1]
  operandBatchingDims := []
  startIndicesBatchingDims := []
  startIndexMap := [0, 1]
  indexVectorDim := 2
  sliceSizes := ![1, 1]
  wf := gather_S22x22_S16x4095x2_S16x4095_n_01_n_n_01_2_11_wf

class Facts : Prop extends Facts₀ where

variable [Facts]
-- ==== Proof.Spec.lean ====
/-
  The specification both programs are compared with, over the literal shapes of this statement.

  A token word `w` (a signed 32-bit integer) names the table row `row w`: its signed value cut into `[0, 21]`.
  For the token array `x : [16, 4096]`, the tables `tokw : [22, 512]`, `ap : [22, 4096]`, `dp : [22, 22]` and the
  positional array `pe : [4096, 512]`, entry `(b, s, d)` of the first result is

      tokw[row x[b,s], d] + (x[b,s] = 0 ? 0 : pe[s, d]) · (ap[row x[b,s], s] + (s + 1 < 4096 ? dp[row x[b,s], row x[b,s+1]] : 0))

  and entry `(b, s, k)` of the second result is the indicator of `1 ≤ x1[b,s] ≤ 21` at `k = 0` and `ex[b, s, 0]` at `k = 1`.
  `blkAt` is the same entry read off ONE block of the kernel's grid: rows `r` of sequence tile `si`, the token pair
  `xs[0, r, ·]` = (this position's clamped token, the next position's clamped token or 0 at the sequence's end).
-/
import Idealize.ShloMosaic.PureOps.Ideal
import Idealize.ShloMosaic.Lib.ValueIdx

noncomputable section

namespace Cert.Spec

open Idealize.ShloMosaic Idealize.ShloMosaic.ValueIdx

/-- The table row a token word names: its signed value cut into `[0, 21]`. -/
def row (w : BitVec 32) : Fin 22 := ⟨min w.toInt.toNat 21, by omega⟩

/-- The clamp the kernel's wrapper applies to every token word: `min 21 (max 0 w)`, signed. -/
def clipw (w : BitVec 32) : BitVec 32 := IntOp.minsi 21#32 (IntOp.maxsi 0#32 w)

/-- Entry `(b, s, d)` of the embedding. -/
def embAt (x : IVec ⟨2, ![16, 4096]⟩ 32) (tokw : FVec Ideal ⟨2, ![22, 512]⟩ .f32) (pe : FVec Ideal ⟨2, ![4096, 512]⟩ .f32)
    (ap : FVec Ideal ⟨2, ![22, 4096]⟩ .f32) (dp : FVec Ideal ⟨2, ![22, 22]⟩ .f32) (b : Fin 16) (s : Fin 4096) (d : Fin 512) : EReal :=
  tokw (ix2 (row (x (ix2 b s))) d)
    + (if x (ix2 b s) = 0#32 then (0 : EReal) else pe (ix2 s d))
      * (ap (ix2 (row (x (ix2 b s))) s)
          + (if h : s.val + 1 < 4096 then dp (ix2 (row (x (ix2 b s))) (row (x (ix2 b ⟨s.val + 1, h⟩)))) else (0 : EReal)))

/-- The embedding, as one array. -/
def emb (x : IVec ⟨2, ![16, 4096]⟩ 32) (tokw : FVec Ideal ⟨2, ![22, 512]⟩ .f32) (pe : FVec Ideal ⟨2, ![4096, 512]⟩ .f32)
    (ap : FVec Ideal ⟨2, ![22, 4096]⟩ .f32) (dp : FVec Ideal ⟨2, ![22, 22]⟩ .f32) : FVec Ideal ⟨3, ![16, 4096, 512]⟩ .f32 :=
  fun j => embAt x tokw pe ap dp (j 0) (j 1) (j 2)

/-- Entry `(b, s, k)` of the second result: the validity indicator of `x1[b, s]`, then `ex[b, s, 0]`. -/
def exonAt (x1 : IVec ⟨2, ![16, 4096]⟩ 32) (ex : FVec Ideal ⟨3, ![16, 4096, 1]⟩ .f32) (b : Fin 16) (s : Fin 4096) (k : Fin 2) : EReal :=
  if k.val = 0 then (if 1 ≤ (x1 (ix2 b s)).toInt ∧ (x1 (ix2 b s)).toInt ≤ 21 then (1 : EReal) else 0)
  else ex (ix3 b s (0 : Fin 1))

/-- The second result, as one array. -/
def exon (x1 : IVec ⟨2, ![16, 4096]⟩ 32) (ex : FVec Ideal ⟨3, ![16, 4096, 1]⟩ .f32) : FVec Ideal ⟨3, ![16, 4096, 2]⟩ .f32 :=
  fun j => exonAt x1 ex (j 0) (j 1) (j 2)

/-- Entry `(r, d)` of the block sequence tile `si` writes, from the blocks it is handed: the token pairs `xs : [1, 2048, 2]`,
    the positional rows `peb : [2048, 512]`, the transposed probability rows `apb : [2048, 22]` and the two whole tables. -/
def blkAt (si : ℕ) (xs : IVec ⟨3, ![1, 2048, 2]⟩ 32) (peb : FVec Ideal ⟨2, ![2048, 512]⟩ .f32) (apb : FVec Ideal ⟨2, ![2048, 22]⟩ .f32)
    (tokw : FVec Ideal ⟨2, ![22, 512]⟩ .f32) (dp : FVec Ideal ⟨2, ![22, 22]⟩ .f32) (r : Fin 2048) (d : Fin 512) : EReal :=
  tokw (ix2 (row (xs (ix3 (0 : Fin 1) r (0 : Fin 2)))) d)
    + (if xs (ix3 (0 : Fin 1) r (0 : Fin 2)) = 0#32 then (0 : EReal) else peb (ix2 r d))
      * (apb (ix2 r (row (xs (ix3 (0 : Fin 1) r (0 : Fin 2)))))
          + (if si * 2048 + r.val = 4095 then (0 : EReal)
             else dp (ix2 (row (xs (ix3 (0 : Fin 1) r (0 : Fin 2)))) (row (xs (ix3 (0 : Fin 1) r (1 : Fin 2)))))))

end Cert.Spec

end
-- ==== Proof.Words.lean ====
/-
  Facts about single 32-bit words: the clamp `clipw`, the table row `row`, and the comparisons, selects and conversions
  that the two programs apply to a token word, each as a statement about the word's signed value.
-/
import proofs.«421190_j5007931867395_3_alg».proof.Proof.Spec

noncomputable section

namespace Cert.Spec

open Idealize.ShloMosaic Idealize.ShloMosaic.ValueIdx

/-! ### The signed value of a word, and the signed comparisons as statements about it -/

/-- The signed value of a 32-bit word is its unsigned value below `2^31`, and that value less `2^32` from there on. -/
private theorem toInt_cases (w : BitVec 32) :
    (w.toNat < 2147483648 ∧ w.toInt = (w.toNat : Int)) ∨
      (2147483648 ≤ w.toNat ∧ w.toInt = (w.toNat : Int) - 4294967296) := by
  have hlt : w.toNat < 4294967296 := w.isLt
  rw [BitVec.toInt_eq_toNat_cond]
  split <;> omega

private theorem toInt_c0 : (0#32 : BitVec 32).toInt = 0 := by decide
private theorem toInt_c1 : (1#32 : BitVec 32).toInt = 1 := by decide
private theorem toInt_c21 : (21#32 : BitVec 32).toInt = 21 := by decide

private theorem slt_iff (x y : BitVec 32) : x.slt y = true ↔ x.toInt < y.toInt := by
  simp [BitVec.slt]

private theorem sle_iff (x y : BitVec 32) : x.sle y = true ↔ x.toInt ≤ y.toInt := by
  simp [BitVec.sle]

/-- A word whose unsigned value is below `2^31` has that value as its signed value. -/
private theorem toInt_of_toNat_lt {w : BitVec 32} (h : w.toNat < 2147483648) : w.toInt = (w.toNat : Int) := by
  rcases toInt_cases w with ⟨_, e⟩ | ⟨h', _⟩
  · exact e
  · omega

/-- The clamp by cases on the signed value: `0` below zero, `21` above `21`, the word itself in between. -/
private theorem clipw_eq (w : BitVec 32) :
    clipw w = if w.toInt < 0 then 0#32 else if 21 < w.toInt then 21#32 else w := by
  unfold clipw IntOp.minsi IntOp.maxsi
  by_cases h0 : w.toInt < 0
  · have hs : w.slt 0#32 = true := (slt_iff _ _).2 (by rw [toInt_c0]; exact h0)
    have hn : ¬ ((21#32 : BitVec 32).slt 0#32 = true) := by decide
    rw [if_pos hs, if_pos h0, if_neg hn]
  · have hs : ¬ (w.slt 0#32 = true) := fun h => h0 (by have := (slt_iff _ _).1 h; rwa [toInt_c0] at this)
    rw [if_neg hs, if_neg h0]
    by_cases h1 : 21 < w.toInt
    · rw [if_pos ((slt_iff _ _).2 (by rw [toInt_c21]; exact h1)), if_pos h1]
    · rw [if_neg (fun h => h1 (by have := (slt_iff _ _).1 h; rwa [toInt_c21] at this)), if_neg h1]

/-- A clamped word is one of `0, …, 21`. -/
theorem clipw_toNat_lt (w : BitVec 32) : (clipw w).toNat < 22 := by
  rw [clipw_eq]
  split
  · decide
  · split
    · decide
    · rcases toInt_cases w with ⟨_, e⟩ | ⟨_, e⟩ <;> omega

/-- Clamping does not change the row a word names. -/
theorem row_clipw (w : BitVec 32) : row (clipw w) = row w := by
  apply Fin.ext
  show min (clipw w).toInt.toNat 21 = min w.toInt.toNat 21
  rw [clipw_eq]
  split
  · rw [toInt_c0]; omega
  · split
    · rw [toInt_c21]; omega
    · rfl

/-- A non-negative word clamps to zero only if it is zero. -/
theorem clipw_eq_zero_iff {w : BitVec 32} (h : 0 ≤ w.toInt) : clipw w = 0#32 ↔ w = 0#32 := by
  rw [clipw_eq, if_neg (not_lt.2 h)]
  split
  · rename_i h21
    constructor
    · intro e; exact absurd e (by decide)
    · intro e; rw [e, toInt_c0] at h21; omega
  · exact Iff.rfl

/-- The row of the zero word is row 0. -/
theorem row_zero : row 0#32 = (0 : Fin 22) := by
  apply Fin.ext
  show min (0#32 : BitVec 32).toInt.toNat 21 = 0
  rw [toInt_c0]; rfl

/-- A word below 22 names the row of its own value. -/
theorem row_val_of_lt {w : BitVec 32} (h : w.toNat < 22) : (row w).val = w.toNat := by
  show min w.toInt.toNat 21 = w.toNat
  rw [toInt_of_toNat_lt (by omega)]
  omega

/-- A word below 22 equals the column number `v` exactly when it names row `v`. -/
theorem eq_ofNat_iff_row {w : BitVec 32} (h : w.toNat < 22) (v : Fin 22) : w = BitVec.ofNat 32 v.val ↔ row w = v := by
  have hv : (BitVec.ofNat 32 v.val).toNat = v.val := by
    rw [BitVec.toNat_ofNat]; have := v.isLt; omega
  constructor
  · intro e
    apply Fin.ext
    rw [row_val_of_lt h, e, hv]
  · intro e
    apply BitVec.eq_of_toNat_eq
    rw [hv, ← e, row_val_of_lt h]

/-- jnp's wrap of a negative index (`w < 0 ? w + n : w`) leaves a non-negative word alone. -/
theorem wrapneg_of_nonneg {w : BitVec 32} (n : BitVec 32) (h : 0 ≤ w.toInt) :
    Scalar.select (IntOp.cmpi .slt w 0#32) (IntOp.addi w n) w = w := by
  have hs : w.slt 0#32 = false := by
    cases hb : w.slt 0#32
    · rfl
    · have := (slt_iff _ _).1 hb; rw [toInt_c0] at this; omega
  show Scalar.select (BitVec.ofBool (w.slt 0#32)) (IntOp.addi w n) w = w
  rw [hs]
  exact select_zero _ _

/-- The position a word names on an axis of 4096: its signed value cut into `[0, 4095]`. -/
def pos (w : BitVec 32) : Fin 4096 := ⟨min w.toInt.toNat 4095, by omega⟩

/-- The unsigned value of a position number, as a word, is the position. -/
private theorem toNat_ofNat_pos (s : Fin 4096) : (BitVec.ofNat 32 s.val).toNat = s.val := by
  rw [BitVec.toNat_ofNat]; have := s.isLt; omega

/-- A position number, as a word, is non-negative … -/
theorem toInt_ofNat_nonneg (s : Fin 4096) : 0 ≤ (BitVec.ofNat 32 s.val).toInt := by
  have hs := s.isLt
  rw [toInt_of_toNat_lt (by rw [toNat_ofNat_pos]; omega)]
  omega

/-- … and names its own position. -/
theorem pos_ofNat (s : Fin 4096) : pos (BitVec.ofNat 32 s.val) = s := by
  have hs := s.isLt
  apply Fin.ext
  show min (BitVec.ofNat 32 s.val).toInt.toNat 4095 = s.val
  rw [toInt_of_toNat_lt (by rw [toNat_ofNat_pos]; omega), toNat_ofNat_pos]
  omega

/-- A boolean, as a bit, is `1` exactly when it is true. -/
private theorem ofBool_eq_one_iff (b : Bool) : BitVec.ofBool b = 1#1 ↔ b = true := by
  cases b <;> decide

/-- The signed test `w ≥ 0` as a bit. -/
theorem sge_zero_iff (w : BitVec 32) : IntOp.cmpi .sge w 0#32 = 1#1 ↔ 0 ≤ w.toInt := by
  show BitVec.ofBool ((0#32 : BitVec 32).sle w) = 1#1 ↔ 0 ≤ w.toInt
  rw [ofBool_eq_one_iff, sle_iff, toInt_c0]

/-- The validity bit `1 ≤ w ≤ 21` (signed). -/
theorem valid_bit (w : BitVec 32) :
    IntOp.andi (IntOp.cmpi .sge w 1#32) (IntOp.cmpi .sle w 21#32) = if 1 ≤ w.toInt ∧ w.toInt ≤ 21 then 1#1 else 0#1 := by
  show BitVec.ofBool ((1#32 : BitVec 32).sle w) &&& BitVec.ofBool (w.sle 21#32) = _
  have h1 : (1#32 : BitVec 32).sle w = decide (1 ≤ w.toInt) := by
    rw [BitVec.sle, toInt_c1]
  have h2 : w.sle 21#32 = decide (w.toInt ≤ 21) := by
    rw [BitVec.sle, toInt_c21]
  rw [h1, h2]
  by_cases a : 1 ≤ w.toInt <;> by_cases b : w.toInt ≤ 21 <;> simp [a, b]

/-- An equality test as a bit. -/
theorem cmpi_eq_bit (a b : BitVec 32) : IntOp.cmpi .eq a b = if a = b then 1#1 else 0#1 := by
  show BitVec.ofBool (a == b) = _
  have e : (a == b) = decide (a = b) := rfl
  rw [e]
  by_cases h : a = b
  · rw [if_pos h, decide_eq_true h]; rfl
  · rw [if_neg h, decide_eq_false h]; rfl

/-- An inequality test as a bit. -/
theorem cmpi_ne_bit (a b : BitVec 32) : IntOp.cmpi .ne a b = if a = b then 0#1 else 1#1 := by
  show BitVec.ofBool (!(a == b)) = _
  have e : (a == b) = decide (a = b) := rfl
  rw [e]
  by_cases h : a = b
  · rw [if_pos h, decide_eq_true h]; rfl
  · rw [if_neg h, decide_eq_false h]; rfl

end Cert.Spec

end
-- ==== Proof.PreDecode.lean ====
/-
  What the precondition says of the token array: every token is non-negative (the last conjunct of the printed predicate).
-/
import proofs.«421190_j5007931867395_3_alg».proof.Proof.Spec
import proofs.«421190_j5007931867395_3_alg».proof.Proof.Words
import proofs.«421190_j5007931867395_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

/-- Under the precondition every token's signed value is non-negative. -/
theorem nonneg_of_pre {F : FTy → Type} [FloatOps F] (a0 a1 : IVec S16x4096 32) (a2 : FVec F S16x4096x1 .f32) (a3 : FVec F S22x512 .f32)
    (a4 : FVec F S4096x512 .f32) (a5 : FVec F S22x4096 .f32) (a6 : FVec F S22x22 .f32)
    (h : Cert.Pre_finite_inputs.fn (F := F) a0 a1 a2 a3 a4 a5 a6 = fun _ => 1#1) : ∀ i, 0 ≤ (a0 i).toInt := by
  intro i
  have h0 := congrFun h ix0
  dsimp only [fn, fn_part1] at h0
  -- the predicate is a conjunction of bits; its last conjunct is the `jnp.all` of the signed test `a0 ≥ 0`
  have h1 : Host.reduce IntOp.andi (cmpi .sge a0 (broadcastInDim S16x4096 ![] Facts.bcast_S_S16x4096 (constantI S_ 32 0#32)))
      (constantI S_ 1 1#1) Facts.reducesTo_S16x4096_S_d0_1 Facts.h_S_ ix0 = 1#1 := (IntOp.andi_eq_one.1 h0).2
  haveI : Subsingleton S_.Idx := ⟨fun a b => funext fun d => d.elim0⟩
  -- every element of the reduced array is 1: at `i` this is the test `a0 i ≥ 0` against the broadcast constant 0
  have h2 := Host.reduce_andi_all _ _ _ _ _ h1 i
  exact (Cert.Spec.sge_zero_iff (a0 i)).1 h2

end Cert.Pre_finite_inputs.Decode

end
-- ==== Proof.Glue.lean ====
/-
  The kernel's wrapper, as pure functions of the argument arrays: the clamped tokens, the token pairs the kernel's first
  window reads (this position's clamped token; the next position's, zero at the sequence's end), the transposed probability
  table its third window reads, and the second result, which the wrapper computes after the call.
-/
import proofs.«421190_j5007931867395_3_alg».proof.Proof.Gen.KernelIdeal

noncomputable section

namespace Cert.KernelIdeal.Glue

open Cert.KernelIdeal Cert.KernelIdeal.Gen Idealize.ShloMosaic

variable {F : FTy → Type} [FloatOps F]

/-- Every token clamped into `[0, 21]`: `min 21 (max 0 x)`, signed. -/
def clipped (x : IVec S16x4096 32) : IVec S16x4096 32 :=
  minsi (broadcastInDim S16x4096 ![] bcast_S_S16x4096 (constantI S_ 32 21#32))
    (maxsi (broadcastInDim S16x4096 ![] bcast_S_S16x4096 (constantI S_ 32 0#32)) x)

/-- The token pairs `[b, s, ·]`: the clamped token at `s`, and the clamped token at `s + 1` (a zero column joined after the last). -/
def pairs (x : IVec S16x4096 32) : IVec S16x4096x2 32 :=
  concatenate S16x4096x2 2
    [⟨S16x4096x1, broadcastInDim S16x4096x1 ![0, 1] bcast_S16x4096_S16x4096x1_0_1 (clipped x)⟩,
     ⟨S16x4096x1, broadcastInDim S16x4096x1 ![0, 1] bcast_S16x4096_S16x4096x1_0_1
        (concatenate S16x4096 1
          [⟨S16x4095, extractStridedSlice S16x4095 ![0, 1] (clipped x) slices_S16x4096_S16x4095_0_1⟩,
           ⟨S16x1, broadcastInDim S16x1 ![] bcast_S_S16x1 (constantI S_ 32 0#32)⟩]
          concatenates_S16x4095_S16x1_S16x4096_d1)⟩]
    concatenates_S16x4096x1_S16x4096x1_S16x4096x2_d2

/-- The probability table with positions first. -/
def apT (ap : FVec F S22x4096 .f32) : FVec F S4096x22 .f32 :=
  transpose S4096x22 [1, 0] ap transposes_S22x4096_S4096x22_1_0

/-- The second result: the validity indicator of `x1` joined with `ex` along the last axis. -/
def tail (x1 : IVec S16x4096 32) (ex : FVec F S16x4096x1 .f32) : FVec F S16x4096x2 .f32 :=
  concatenate S16x4096x2 2
    [⟨S16x4096x1, broadcastInDim S16x4096x1 ![0, 1] bcast_S16x4096_S16x4096x1_0_1
        (uitofp .f32 (andi (cmpi .sge x1 (broadcastInDim S16x4096 ![] bcast_S_S16x4096 (constantI S_ 32 1#32)))
                           (cmpi .sle x1 (broadcastInDim S16x4096 ![] bcast_S_S16x4096 (constantI S_ 32 21#32)))))⟩,
     ⟨S16x4096x1, ex⟩]
    concatenates_S16x4096x1_S16x4096x1_S16x4096x2_d2

end Cert.KernelIdeal.Glue

end
-- ==== Proof.GlueAt.lean ====
/-
  The wrapper's arrays read at an index, and the second result on both sides as the specification's.
-/
import proofs.«421190_j5007931867395_3_alg».proof.Proof.Spec
import proofs.«421190_j5007931867395_3_alg».proof.Proof.Words
import proofs.«421190_j5007931867395_3_alg».proof.Proof.Glue
import Idealize.ShloMosaic.Lib.ValueIdx
import Idealize.ShloMosaic.Lib.Pipeline.Value
import Idealize.ShloMosaic.Lib.ValueLayout

noncomputable section

namespace Cert.KernelIdeal.Glue

open Cert.KernelIdeal Cert.KernelIdeal.Gen Idealize.ShloMosaic Idealize.ShloMosaic.ValueIdx

/-- A clamped token is the clamp of the token. -/
theorem clipped_apply (x : IVec S16x4096 32) (b : Fin 16) (s : Fin 4096) :
    clipped x (ix2 b s) = Cert.Spec.clipw (x (ix2 b s)) := by
  rfl

/-- A column `[16, 4096, 1]` spread from a `[16, 4096]` array reads the array at the first two coordinates. -/
private theorem column_apply {α : Type} (v : S16x4096.Idx → α) (b : Fin 16) (s : Fin 4096) :
    broadcastInDim S16x4096x1 ![0, 1] bcast_S16x4096_S16x4096x1_0_1 v (ix3 b s (0 : Fin 1)) = v (ix2 b s) :=
  broadcastInDim_apply _ _ v _ (ix2 b s) fun a => by
    match a with
    | ⟨0, _⟩ => rfl
    | ⟨1, _⟩ => rfl

/-- The join of two columns along the last axis reads the first column at `k = 0`. -/
private theorem join_left {α : Type} (u v : S16x4096x1.Idx → α) (b : Fin 16) (s : Fin 4096) :
    concatenate S16x4096x2 2 [⟨S16x4096x1, u⟩, ⟨S16x4096x1, v⟩] concatenates_S16x4096x1_S16x4096x1_S16x4096x2_d2
      (ix3 b s (0 : Fin 2)) = u (ix3 b s (0 : Fin 1)) :=
  concatenate_pair_apply_left (t := S16x4096x2) (s₁ := S16x4096x1) (s₂ := S16x4096x1) (2 : Fin 3) u v _ _ rfl
    (ix3 b s (0 : Fin 1)) fun a => by
      match a with
      | ⟨0, _⟩ => rfl
      | ⟨1, _⟩ => rfl
      | ⟨2, _⟩ => rfl

/-- The join of two columns along the last axis reads the second column at `k = 1`. -/
private theorem join_right {α : Type} (u v : S16x4096x1.Idx → α) (b : Fin 16) (s : Fin 4096) :
    concatenate S16x4096x2 2 [⟨S16x4096x1, u⟩, ⟨S16x4096x1, v⟩] concatenates_S16x4096x1_S16x4096x1_S16x4096x2_d2
      (ix3 b s (1 : Fin 2)) = v (ix3 b s (0 : Fin 1)) :=
  concatenate_pair_apply_right (t := S16x4096x2) (s₁ := S16x4096x1) (s₂ := S16x4096x1) (2 : Fin 3) u v _ _ rfl rfl
    (ix3 b s (0 : Fin 1))
    (fun a ha => by
      match a with
      | ⟨0, _⟩ => rfl
      | ⟨1, _⟩ => rfl
      | ⟨2, _⟩ => exact absurd rfl ha)
    rfl

/-- The tokens shifted one position left, a zero after the last: the next position's clamped token. -/
private theorem shifted_apply (x : IVec S16x4096 32) (b : Fin 16) (s : Fin 4096) :
    concatenate S16x4096 1
        [⟨S16x4095, extractStridedSlice S16x4095 ![0, 1] (clipped x) slices_S16x4096_S16x4095_0_1⟩,
         ⟨S16x1, broadcastInDim S16x1 ![] bcast_S_S16x1 (constantI S_ 32 0#32)⟩]
        concatenates_S16x4095_S16x1_S16x4096_d1 (ix2 b s)
      = if h : s.val + 1 < 4096 then Cert.Spec.clipw (x (ix2 b ⟨s.val + 1, h⟩)) else 0#32 := by
  by_cases h : s.val + 1 < 4096
  · rw [dif_pos h]
    refine (concatenate_pair_apply_left (t := S16x4096) (s₁ := S16x4095) (s₂ := S16x1) (1 : Fin 2) _ _ _ _ rfl
      (ix2 b (⟨s.val, by omega⟩ : Fin 4095)) fun a => by
        match a with
        | ⟨0, _⟩ => rfl
        | ⟨1, _⟩ => rfl).trans ?_
    refine (slice2_axis1_apply 1 (clipped x) slices_S16x4096_S16x4095_0_1 b (⟨s.val, by omega⟩ : Fin 4095)
      (⟨s.val + 1, h⟩ : Fin 4096) (by show s.val + 1 = 1 + s.val; omega)).trans ?_
    exact clipped_apply x b _
  · rw [dif_neg h]
    refine (concatenate_pair_apply_right (t := S16x4096) (s₁ := S16x4095) (s₂ := S16x1) (1 : Fin 2) _ _ _ _ rfl rfl
      (ix2 b (0 : Fin 1))
      (fun a ha => by
        match a with
        | ⟨0, _⟩ => rfl
        | ⟨1, _⟩ => exact absurd rfl ha)
      (by show 0 + 4095 = s.val; omega)).trans ?_
    rfl

/-- The token pair at `(b, s)`: this position's clamped token, then the next position's, zero after the last. -/
theorem pairs_apply (x : IVec S16x4096 32) (b : Fin 16) (s : Fin 4096) (k : Fin 2) :
    pairs x (ix3 b s k) = if k.val = 0 then Cert.Spec.clipw (x (ix2 b s))
      else if h : s.val + 1 < 4096 then Cert.Spec.clipw (x (ix2 b ⟨s.val + 1, h⟩)) else 0#32 := by
  unfold pairs
  match k with
  | ⟨0, _⟩ =>
    rw [if_pos rfl]
    refine (join_left _ _ b s).trans ?_
    refine (column_apply _ b s).trans ?_
    exact clipped_apply x b s
  | ⟨1, _⟩ =>
    rw [if_neg (by exact Nat.one_ne_zero)]
    refine (join_right _ _ b s).trans ?_
    refine (column_apply _ b s).trans ?_
    exact shifted_apply x b s

/-- The transposed table at `(s, v)` is the table at `(v, s)`. -/
theorem apT_apply (ap : FVec Ideal S22x4096 .f32) (s : Fin 4096) (v : Fin 22) :
    apT (F := Ideal) ap (ix2 s v) = ap (ix2 v s) := by
  unfold apT
  exact transpose_ix2_apply ap transposes_S22x4096_S4096x22_1_0 s v

/-- The wrapper's second result is the specification's. -/
theorem tail_eq (x1 : IVec S16x4096 32) (ex : FVec Ideal S16x4096x1 .f32) :
    tail (F := Ideal) x1 ex = Cert.Spec.exon x1 ex := by
  funext j
  obtain ⟨b, s, k, rfl⟩ : ∃ b s k, j = ix3 b s k := ⟨j 0, j 1, j 2, eq_ix3 j⟩
  show tail (F := Ideal) x1 ex (ix3 b s k) = Cert.Spec.exonAt x1 ex b s k
  unfold tail Cert.Spec.exonAt
  match k with
  | ⟨0, _⟩ =>
    rw [if_pos rfl]
    refine (join_left _ _ b s).trans ?_
    refine (column_apply _ b s).trans ?_
    show FloatOps.uitofp (F := Ideal) .f32
        (IntOp.andi (IntOp.cmpi .sge (x1 (ix2 b s)) 1#32) (IntOp.cmpi .sle (x1 (ix2 b s)) 21#32)) = _
    rw [Cert.Spec.valid_bit]
    by_cases hv : 1 ≤ (x1 (ix2 b s)).toInt ∧ (x1 (ix2 b s)).toInt ≤ 21
    · rw [if_pos hv, if_pos hv]
      show (((1#1 : BitVec 1).toNat : ℝ) : EReal) = 1
      norm_num
    · rw [if_neg hv, if_neg hv]
      show (((0#1 : BitVec 1).toNat : ℝ) : EReal) = 0
      norm_num
  | ⟨1, _⟩ =>
    rw [if_neg (by exact Nat.one_ne_zero)]
    exact join_right _ _ b s

end Cert.KernelIdeal.Glue

end
-- ==== Proof.PayAt.lean ====
/-
  The kernel body's stored value, read at one entry of the block: with the token pairs of the block below 22, entry
  `(0, r, d)` is the specification's block entry — the two one-hot products select a table row each, the one-hot
  weighted row sums select one probability and one dipeptide entry, and the last-position test zeroes the dipeptide term.
-/
import proofs.«421190_j5007931867395_3_alg».proof.Proof.Spec
import proofs.«421190_j5007931867395_3_alg».proof.Proof.Words
import proofs.«421190_j5007931867395_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

/-! ## Two column forms of the layout operations -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Bits as numbers, and sums against a one-hot row -/

/-- The set bit, widened and read signed, is the number one. -/
theorem sitofp_bit_one : FloatOps.sitofp (F := Ideal) .f32 ((1#1 : BitVec 1).setWidth 32) = (1 : EReal) := by
  show ((((1#1 : BitVec 1).setWidth 32).toInt : ℝ) : EReal) = 1
  have e : ((1#1 : BitVec 1).setWidth 32).toInt = 1 := by decide
  rw [e]; simp

/-- The clear bit, widened and read signed, is the number zero. -/
theorem sitofp_bit_zero : FloatOps.sitofp (F := Ideal) .f32 ((0#1 : BitVec 1).setWidth 32) = (0 : EReal) := by
  show ((((0#1 : BitVec 1).setWidth 32).toInt : ℝ) : EReal) = 0
  have e : ((0#1 : BitVec 1).setWidth 32).toInt = 0 := by decide
  rw [e]; simp

/-- A sum against the one-hot row of `t`, the indicator on the left, is the entry at `t`. -/
theorem sum_onehot_left (t : Fin 22) (f : Fin 22 → EReal) :
    ∑ v : Fin 22, (if t = v then (1 : EReal) else 0) * f v = f t := by
  rw [Finset.sum_eq_single t]
  · rw [if_pos rfl, one_mul]
  · intro b _ hb; rw [if_neg (Ne.symm hb), zero_mul]
  · intro h; exact absurd (Finset.mem_univ t) h

/-- A sum against the one-hot row of `t`, the indicator on the right, is the entry at `t`. -/
theorem sum_onehot_right (t : Fin 22) (f : Fin 22 → EReal) :
    ∑ v : Fin 22, f v * (if t = v then (1 : EReal) else 0) = f t := by
  rw [Finset.sum_eq_single t]
  · rw [if_pos rfl, mul_one]
  · intro b _ hb; rw [if_neg (Ne.symm hb), mul_zero]
  · intro h; exact absurd (Finset.mem_univ t) h

/-! ## The token words and the one-hot rows -/

/-- The first token column at row `r` is the block's word `(0, r, 0)`. -/
theorem pay3_at (x0 : Vec Ideal S1x2048x2 .i32) (r : Fin 2048) (u : Fin 1) :
    k0_pay3 (F := Ideal) x0 (ix2 r u) = x0 (ix3 (0 : Fin 1) r (0 : Fin 2)) := by
  unfold k0_pay3 k0_pay2
  refine (slice2_axis1_apply 0 _ _ r u (0 : Fin 2) (by have := u.isLt; show 0 = 0 + u.val; omega)).trans ?_
  exact shapeCast_1ab_ab_apply _ _ r (0 : Fin 2)

/-- A one-hot row: the column of words `w` compared with the column numbers, as the numbers one and zero. -/
theorem onehot_at (w : IVec S2048x1 32) (r : Fin 2048) (v : Fin 22) :
    (sitofp .f32 (extui 32 (cmpi .eq (broadcastTo S2048x22 w broadcasts_S2048x1_S2048x22)
        (iota .tc S2048x22 32 [1] iota_S2048x22_d1_w32)) natLt_1_32) : FVec Ideal S2048x22 .f32) (ix2 r v)
      = if w (ix2 r (0 : Fin 1)) = BitVec.ofNat 32 v.val then (1 : EReal) else 0 := by
  show FloatOps.sitofp (F := Ideal) .f32 ((IntOp.cmpi .eq (broadcastTo S2048x22 w broadcasts_S2048x1_S2048x22 (ix2 r v))
      (iota .tc S2048x22 32 [1] iota_S2048x22_d1_w32 (ix2 r v))).setWidth 32) = _
  rw [broadcastTo_a1_ab_apply, iota_single_apply, Cert.Spec.cmpi_eq_bit]
  show FloatOps.sitofp (F := Ideal) .f32 ((if w (ix2 r (0 : Fin 1)) = BitVec.ofNat 32 v.val then 1#1 else 0#1).setWidth 32) = _
  split
  · exact sitofp_bit_one
  · exact sitofp_bit_zero

/-- The first one-hot matrix at `(r, v)`: one exactly when the first token of row `r` names table row `v`. -/
theorem pay4_at (x0 : Vec Ideal S1x2048x2 .i32) (r : Fin 2048) (h : (x0 (ix3 (0 : Fin 1) r (0 : Fin 2))).toNat < 22) (v : Fin 22) :
    k0_pay4 (F := Ideal) x0 (ix2 r v)
      = if Cert.Spec.row (x0 (ix3 (0 : Fin 1) r (0 : Fin 2))) = v then (1 : EReal) else 0 := by
  unfold k0_pay4
  rw [onehot_at, pay3_at]
  exact if_congr (Cert.Spec.eq_ofNat_iff_row h v) rfl rfl

/-! ## The two products with the one-hot matrix, read at an entry -/

/-- Left operand of the tok product, row axis: the result's row. -/
theorem lhs_tok_0 (j : S2048x512.Idx) (k : dot_S2048x22_S22x512_S2048x512_1_0_0_1_n_n.contr.Idx) :
    (dot_S2048x22_S22x512_S2048x512_1_0_0_1_n_n.lhsIdx j k 0).val = (j 0).val := rfl

/-- Left operand of the tok product, column axis: the contraction position. -/
theorem lhs_tok_1 (j : S2048x512.Idx) (k : dot_S2048x22_S22x512_S2048x512_1_0_0_1_n_n.contr.Idx) :
    (dot_S2048x22_S22x512_S2048x512_1_0_0_1_n_n.lhsIdx j k 1).val = (k ⟨0, by decide⟩).val :=
  dot_S2048x22_S22x512_S2048x512_1_0_0_1_n_n.lhsIdx_val_of_single rfl j k

/-- Right operand of the tok product, row axis: the contraction position. -/
theorem rhs_tok_0 (j : S2048x512.Idx) (k : dot_S2048x22_S22x512_S2048x512_1_0_0_1_n_n.contr.Idx) :
    (dot_S2048x22_S22x512_S2048x512_1_0_0_1_n_n.rhsIdx j k 0).val = (k ⟨0, by decide⟩).val :=
  dot_S2048x22_S22x512_S2048x512_1_0_0_1_n_n.rhsIdx_val_of_single rfl j k

/-- Right operand of the tok product, column axis: the result's column. -/
theorem rhs_tok_1 (j : S2048x512.Idx) (k : dot_S2048x22_S22x512_S2048x512_1_0_0_1_n_n.contr.Idx) :
    (dot_S2048x22_S22x512_S2048x512_1_0_0_1_n_n.rhsIdx j k 1).val = (j 1).val := rfl

/-- The tok product into the zero splat, at `(r, c)`: the sum over the 22 table rows. -/
theorem matmul_tok_apply (lhs : FVec Ideal S2048x22 .f32) (rhs : FVec Ideal S22x512 .f32) (r : Fin 2048) (c : Fin 512) :
    matmul dot_S2048x22_S22x512_S2048x512_1_0_0_1_n_n (some .fp32) lhs rhs (constant (F := Ideal) S2048x512 .f32 0x00000000#32) (ix2 r c)
      = ∑ v : Fin 22, lhs (ix2 r v) * rhs (ix2 v c) := by
  refine (Ideal.matmul_constant_zero_apply _ _ _ _ _).trans ?_
  rw [← Equiv.sum_comp (contrEquiv1 dot_S2048x22_S22x512_S2048x512_1_0_0_1_n_n 22 rfl rfl).symm]
  refine Finset.sum_congr rfl fun v _ => ?_
  have hk := contrEquiv1_symm_val dot_S2048x22_S22x512_S2048x512_1_0_0_1_n_n 22 rfl rfl v
  have hl : dot_S2048x22_S22x512_S2048x512_1_0_0_1_n_n.lhsIdx (ix2 r c) ((contrEquiv1 dot_S2048x22_S22x512_S2048x512_1_0_0_1_n_n 22 rfl rfl).symm v) = ix2 r v :=
    Shape.idx_ext₂ (lhs_tok_0 _ _) ((lhs_tok_1 _ _).trans hk)
  have hr : dot_S2048x22_S22x512_S2048x512_1_0_0_1_n_n.rhsIdx (ix2 r c) ((contrEquiv1 dot_S2048x22_S22x512_S2048x512_1_0_0_1_n_n 22 rfl rfl).symm v) = ix2 v c :=
    Shape.idx_ext₂ ((rhs_tok_0 _ _).trans hk) (rhs_tok_1 _ _)
  rw [hl, hr]

/-- Left operand of the dip product, row axis: the result's row. -/
theorem lhs_dip_0 (j : S2048x22.Idx) (k : dot_S2048x22_S22x22_S2048x22_1_0_0_1_n_n.contr.Idx) :
    (dot_S2048x22_S22x22_S2048x22_1_0_0_1_n_n.lhsIdx j k 0).val = (j 0).val := rfl

/-- Left operand of the dip product, column axis: the contraction position. -/
theorem lhs_dip_1 (j : S2048x22.Idx) (k : dot_S2048x22_S22x22_S2048x22_1_0_0_1_n_n.contr.Idx) :
    (dot_S2048x22_S22x22_S2048x22_1_0_0_1_n_n.lhsIdx j k 1).val = (k ⟨0, by decide⟩).val :=
  dot_S2048x22_S22x22_S2048x22_1_0_0_1_n_n.lhsIdx_val_of_single rfl j k

/-- Right operand of the dip product, row axis: the contraction position. -/
theorem rhs_dip_0 (j : S2048x22.Idx) (k : dot_S2048x22_S22x22_S2048x22_1_0_0_1_n_n.contr.Idx) :
    (dot_S2048x22_S22x22_S2048x22_1_0_0_1_n_n.rhsIdx j k 0).val = (k ⟨0, by decide⟩).val :=
  dot_S2048x22_S22x22_S2048x22_1_0_0_1_n_n.rhsIdx_val_of_single rfl j k

/-- Right operand of the dip product, column axis: the result's column. -/
theorem rhs_dip_1 (j : S2048x22.Idx) (k : dot_S2048x22_S22x22_S2048x22_1_0_0_1_n_n.contr.Idx) :
    (dot_S2048x22_S22x22_S2048x22_1_0_0_1_n_n.rhsIdx j k 1).val = (j 1).val := rfl

/-- The dip product into the zero splat, at `(r, c)`: the sum over the 22 table rows. -/
theorem matmul_dip_apply (lhs : FVec Ideal S2048x22 .f32) (rhs : FVec Ideal S22x22 .f32) (r : Fin 2048) (c : Fin 22) :
    matmul dot_S2048x22_S22x22_S2048x22_1_0_0_1_n_n (some .fp32) lhs rhs (constant (F := Ideal) S2048x22 .f32 0x00000000#32) (ix2 r c)
      = ∑ v : Fin 22, lhs (ix2 r v) * rhs (ix2 v c) := by
  refine (Ideal.matmul_constant_zero_apply _ _ _ _ _).trans ?_
  rw [← Equiv.sum_comp (contrEquiv1 dot_S2048x22_S22x22_S2048x22_1_0_0_1_n_n 22 rfl rfl).symm]
  refine Finset.sum_congr rfl fun v _ => ?_
  have hk := contrEquiv1_symm_val dot_S2048x22_S22x22_S2048x22_1_0_0_1_n_n 22 rfl rfl v
  have hl : dot_S2048x22_S22x22_S2048x22_1_0_0_1_n_n.lhsIdx (ix2 r c) ((contrEquiv1 dot_S2048x22_S22x22_S2048x22_1_0_0_1_n_n 22 rfl rfl).symm v) = ix2 r v :=
    Shape.idx_ext₂ (lhs_dip_0 _ _) ((lhs_dip_1 _ _).trans hk)
  have hr : dot_S2048x22_S22x22_S2048x22_1_0_0_1_n_n.rhsIdx (ix2 r c) ((contrEquiv1 dot_S2048x22_S22x22_S2048x22_1_0_0_1_n_n 22 rfl rfl).symm v) = ix2 v c :=
    Shape.idx_ext₂ ((rhs_dip_0 _ _).trans hk) (rhs_dip_1 _ _)
  rw [hl, hr]

/-! ## The payloads at an entry -/

/-- The token-embedding product at `(r, d)`: the table row the first token names. -/
theorem pay5_at (x0 : Vec Ideal S1x2048x2 .i32) (x3 : FVec Ideal S22x512 .f32) (r : Fin 2048)
    (h : (x0 (ix3 (0 : Fin 1) r (0 : Fin 2))).toNat < 22) (d : Fin 512) :
    k0_pay5 (F := Ideal) x0 x3 (ix2 r d) = x3 (ix2 (Cert.Spec.row (x0 (ix3 (0 : Fin 1) r (0 : Fin 2)))) d) := by
  unfold k0_pay5
  rw [matmul_tok_apply]
  simp only [pay4_at x0 r h]
  exact sum_onehot_left _ fun v => x3 (ix2 v d)

/-- The masked positional row at `(r, d)`: zero where the first token is the zero word. -/
theorem pay6_at (x0 : Vec Ideal S1x2048x2 .i32) (x1 : FVec Ideal S2048x512 .f32) (r : Fin 2048) (d : Fin 512) :
    k0_pay6 (F := Ideal) x0 x1 (ix2 r d)
      = (if x0 (ix3 (0 : Fin 1) r (0 : Fin 2)) = 0#32 then (0 : EReal) else x1 (ix2 r d)) := by
  unfold k0_pay6
  rw [mulf_apply, broadcastTo_a1_ab_apply]
  show x1 (ix2 r d) * FloatOps.sitofp (F := Ideal) .f32
      ((IntOp.cmpi .ne (k0_pay3 (F := Ideal) x0 (ix2 r (0 : Fin 1))) 0#32).setWidth 32) = _
  rw [pay3_at, Cert.Spec.cmpi_ne_bit]
  split
  · rw [sitofp_bit_zero, mul_zero]
  · rw [sitofp_bit_one, mul_one]

/-- The source index of a row sum over the 22 columns: row `r`, column `k`. -/
theorem lift_row (r : Fin 2048) (k : Fin 22) :
    Shape.Reduces.lift (s := S2048x22) (t := S2048) (a := 1) reduces_S2048x22_S2048 (ix1 r) k = ix2 r k :=
  Shape.idx_ext₂ rfl rfl

/-- The one-hot weighted row sum of the probabilities at `(r, 0)`: the entry of the column the first token names. -/
theorem pay7_at (x0 : Vec Ideal S1x2048x2 .i32) (x2 : FVec Ideal S2048x22 .f32) (r : Fin 2048)
    (h : (x0 (ix3 (0 : Fin 1) r (0 : Fin 2))).toNat < 22) (u : Fin 1) :
    k0_pay7 (F := Ideal) x0 x2 (ix2 r u) = x2 (ix2 r (Cert.Spec.row (x0 (ix3 (0 : Fin 1) r (0 : Fin 2))))) := by
  unfold k0_pay7
  rw [shapeCast_a_a1_apply]
  refine (Ideal.multiReduction_add_single _ _ _ _ _ _).trans ?_
  show ∑ k : Fin 22, _ = _
  simp only [lift_row, mulf_apply, shapeCast_self, pay4_at x0 r h]
  exact sum_onehot_left _ fun v => x2 (ix2 r v)

/-- The second token column at row `r` is the block's word `(0, r, 1)`. -/
theorem tok1_at (x0 : Vec Ideal S1x2048x2 .i32) (r : Fin 2048) (u : Fin 1) :
    extractStridedSlice S2048x1 ![0, 1] (k0_pay2 (F := Ideal) x0) slices_S2048x2_o0_1_S2048x1 (ix2 r u)
      = x0 (ix3 (0 : Fin 1) r (1 : Fin 2)) := by
  unfold k0_pay2
  refine (slice2_axis1_apply 1 _ _ r u (1 : Fin 2) (by have := u.isLt; show 1 = 1 + u.val; omega)).trans ?_
  exact shapeCast_1ab_ab_apply _ _ r (1 : Fin 2)

/-- The doubly one-hot weighted sum of the dipeptide table at `(r, 0)`: the entry the token pair names. -/
theorem pay8_at (x0 : Vec Ideal S1x2048x2 .i32) (x4 : FVec Ideal S22x22 .f32) (r : Fin 2048)
    (h : (x0 (ix3 (0 : Fin 1) r (0 : Fin 2))).toNat < 22) (h' : (x0 (ix3 (0 : Fin 1) r (1 : Fin 2))).toNat < 22) (u : Fin 1) :
    k0_pay8 (F := Ideal) x0 x4 (ix2 r u)
      = x4 (ix2 (Cert.Spec.row (x0 (ix3 (0 : Fin 1) r (0 : Fin 2)))) (Cert.Spec.row (x0 (ix3 (0 : Fin 1) r (1 : Fin 2))))) := by
  unfold k0_pay8
  rw [shapeCast_a_a1_apply]
  refine (Ideal.multiReduction_add_single _ _ _ _ _ _).trans ?_
  show ∑ k : Fin 22, _ = _
  simp only [lift_row, mulf_apply, matmul_dip_apply, pay4_at x0 r h, sum_onehot_left]
  refine (Finset.sum_congr rfl fun w _ => ?_).trans
    (sum_onehot_right (Cert.Spec.row (x0 (ix3 (0 : Fin 1) r (1 : Fin 2))))
      fun w => x4 (ix2 (Cert.Spec.row (x0 (ix3 (0 : Fin 1) r (0 : Fin 2)))) w))
  refine congrArg (x4 (ix2 (Cert.Spec.row (x0 (ix3 (0 : Fin 1) r (0 : Fin 2)))) w) * ·) ((onehot_at _ r w).trans ?_)
  rw [tok1_at]
  exact if_congr (Cert.Spec.eq_ofNat_iff_row h' w) rfl rfl

/-- The last-position test at `(r, 0)`: the bit of "row `r` of sequence tile `i 0` is position 4095". -/
theorem pay9_at (i : grid0.Coords) (r : Fin 2048) (u : Fin 1) :
    k0_pay9 i (ix2 r u) = if (i 0).val * 2048 + r.val = 4095 then 1#1 else 0#1 := by
  unfold k0_pay9
  show IntOp.cmpi .eq (IntOp.addi (Scalar.muli (BitVec.ofNat 32 (i 0).val) 2048#32)
      (iota .tc S2048x1 32 [0] iota_S2048x1_d0_w32 (ix2 r u))) 4095#32 = _
  rw [iota_single_apply, Cert.Spec.cmpi_eq_bit]
  have hi : (i 0).val < 2 := (i 0).isLt
  have hr : r.val < 2048 := r.isLt
  refine if_congr ?_ rfl rfl
  show BitVec.ofNat 32 (i 0).val * 2048#32 + BitVec.ofNat 32 r.val = 4095#32 ↔ _
  rw [← BitVec.toNat_inj, BitVec.toNat_add, BitVec.toNat_mul, BitVec.toNat_ofNat, BitVec.toNat_ofNat]
  show ((i 0).val % 2 ^ 32 * 2048 % 2 ^ 32 + r.val % 2 ^ 32) % 2 ^ 32 = 4095 ↔ _
  omega

/-- The zero column. -/
theorem pay10_at (r : Fin 2048) (u : Fin 1) : k0_pay10 (F := Ideal) (ix2 r u) = (0 : EReal) :=
  Ideal.ofBits_zero_f32

/-- The stored value at `(0, r, d)` from the six values it reads. -/
theorem pay1_at (v14 v21 : FVec Ideal S2048x512 .f32) (v26 v31 : FVec Ideal S2048x1 .f32) (v37 : IVec S2048x1 1)
    (v38 : FVec Ideal S2048x1 .f32) (r : Fin 2048) (d : Fin 512) :
    k0_pay1 (F := Ideal) v14 v21 v26 v31 v37 v38 (ix3 (0 : Fin 1) r d)
      = v14 (ix2 r d) + v21 (ix2 r d)
          * (v26 (ix2 r (0 : Fin 1)) + Scalar.select (v37 (ix2 r (0 : Fin 1))) (v38 (ix2 r (0 : Fin 1))) (v31 (ix2 r (0 : Fin 1)))) := by
  unfold k0_pay1
  rw [shapeCast_ab_1ab_apply, addf_apply, mulf_apply, broadcastTo_a1_ab_apply, addf_apply, select_apply]

/-- THE PAYLOAD AT AN ENTRY. -/
theorem pay_at (i : grid0.Coords) (x0 : Vec Ideal S1x2048x2 .i32) (x1 : Vec Ideal S2048x512 .f32) (x2 : Vec Ideal S2048x22 .f32)
    (x3 : Vec Ideal S22x512 .f32) (x4 : Vec Ideal S22x22 .f32) (h0 : ∀ y, (x0 y).toNat < 22) (r : Fin 2048) (d : Fin 512) :
    k0_pay1 (F := Ideal) (k0_pay5 x0 x3) (k0_pay6 x0 x1) (k0_pay7 x0 x2) (k0_pay8 x0 x4) (k0_pay9 i) (k0_pay10 (F := Ideal))
        (ix3 (0 : Fin 1) r d)
      = Cert.Spec.blkAt (i 0).val x0 x1 x2 x3 x4 r d := by
  rw [pay1_at, pay5_at x0 x3 r (h0 _), pay6_at, pay7_at x0 x2 r (h0 _), pay8_at x0 x4 r (h0 _) (h0 _), pay9_at, pay10_at]
  unfold Cert.Spec.blkAt
  by_cases hl : (i 0).val * 2048 + r.val = 4095
  · rw [if_pos hl, if_pos hl, select_one]
  · rw [if_neg hl, if_neg hl, select_zero]

end Cert.KernelIdeal.PayAt

end
-- ==== Proof.KerValue.lean ====
/-
  The idealized kernel's run, read as values. The call's output array is assembled block by block: grid point `t` = (tile
  `si`, batch `b`) writes rows `si·2048 … si·2048 + 2047` of batch `b`, and each entry it writes is the specification's
  block entry of the blocks it is handed — the token pairs of that batch and tile, the positional rows and the transposed
  probability rows of that tile, the two whole tables. Read back through the wrapper's arrays (the pairs hold the clamped
  token and the next position's clamped token, zero at the sequence's end) the block entry is the embedding's entry at
  `(b, si·2048 + r, d)`, for non-negative tokens. The 32 blocks tile the array, so the array ends at the embedding. The
  second result is the wrapper's own computation after the call, from two arguments the call does not touch.
-/
import proofs.«421190_j5007931867395_3_alg».proof.Proof.KernelIdealFrame
import proofs.«421190_j5007931867395_3_alg».proof.Proof.Spec
import proofs.«421190_j5007931867395_3_alg».proof.Proof.Words
import proofs.«421190_j5007931867395_3_alg».proof.Proof.Glue
import proofs.«421190_j5007931867395_3_alg».proof.Proof.GlueAt
import proofs.«421190_j5007931867395_3_alg».proof.Proof.PayAt
import Idealize.ShloMosaic.Lib.Pipeline.Value
import Idealize.ShloMosaic.Lib.StableHlo.Run
import Idealize.ShloMosaic.Lib.ValueIdx

set_option maxRecDepth 16384

noncomputable section

namespace Cert.KernelIdeal.KerValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## One block entry against the embedding's entry, over plain arrays -/

/-- Every token pair is a clamped word or zero: below 22. -/
theorem pairs_lt (x : IVec S16x4096 32) (i : S16x4096x2.Idx) : (Glue.pairs x i).toNat < 22 := by
  obtain ⟨b, s, k, rfl⟩ : ∃ (b : Fin 16) (s : Fin 4096) (k : Fin 2), i = ix3 b s k := ⟨i 0, i 1, i 2, eq_ix3 i⟩
  rw [Glue.pairs_apply]
  split
  · exact Cert.Spec.clipw_toNat_lt _
  · split
    · exact Cert.Spec.clipw_toNat_lt _
    · decide

/-- THE BLOCK ENTRY IS THE EMBEDDING'S: tile `si` of batch `bt`, handed the pairs, positional rows and probability rows of
    its rows `si·2048 + r`, writes at `(r, d)` the embedding's entry at `(bt, si·2048 + r, d)`. -/
theorem blk_eq_emb (x : IVec S16x4096 32) (tokw : FVec Ideal S22x512 .f32) (pe : FVec Ideal S4096x512 .f32)
    (ap : FVec Ideal S22x4096 .f32) (dp : FVec Ideal S22x22 .f32) (hx : ∀ i, 0 ≤ (x i).toInt)
    (bt : Fin 16) (si : Fin 2) (xs : IVec S1x2048x2 32) (peb : FVec Ideal S2048x512 .f32) (apb : FVec Ideal S2048x22 .f32)
    (row_of : Fin 2048 → Fin 4096) (hrow : ∀ r, (row_of r).val = si.val * 2048 + r.val)
    (hxs : ∀ r k, xs (ix3 (0 : Fin 1) r k) = Glue.pairs x (ix3 bt (row_of r) k))
    (hpe : ∀ r d, peb (ix2 r d) = pe (ix2 (row_of r) d))
    (hap : ∀ r v, apb (ix2 r v) = ap (ix2 v (row_of r)))
    (r : Fin 2048) (d : Fin 512) :
    Cert.Spec.blkAt si.val xs peb apb tokw dp r d = Cert.Spec.embAt x tokw pe ap dp bt (row_of r) d := by
  unfold Cert.Spec.blkAt Cert.Spec.embAt
  rw [hxs r 0, hxs r 1, hpe, hap, Glue.pairs_apply, Glue.pairs_apply]
  simp only [Fin.val_zero, Fin.val_one, if_true, one_ne_zero, if_false]
  rw [Cert.Spec.row_clipw]
  rw [if_congr (Cert.Spec.clipw_eq_zero_iff (hx (ix2 bt (row_of r)))) rfl rfl]
  by_cases hlast : (row_of r).val + 1 < 4096
  · have hne : ¬ (si.val * 2048 + r.val = 4095) := by have := hrow r; omega
    rw [if_neg hne, dif_pos hlast, dif_pos hlast, Cert.Spec.row_clipw]
  · have he : si.val * 2048 + r.val = 4095 := by have := hrow r; have := (row_of r).isLt; omega
    rw [if_pos he, dif_neg hlast]

/-! ## The pipeline's blocks -/

variable (m : (ℓ : Loc nD τ sig) → Buf (Elt Ideal) ℓ) (ρ : Dev nD → PrngReg)

/-- The argument arrays, by their literal types. -/
abbrev xarr (c : Dev nD) : IVec S16x4096 32 := m ((c : Thread nD τ).loc main_arg0)
abbrev x1arr (c : Dev nD) : IVec S16x4096 32 := m ((c : Thread nD τ).loc main_arg1)
abbrev exarr (c : Dev nD) : FVec Ideal S16x4096x1 .f32 := m ((c : Thread nD τ).loc main_arg2)
abbrev tokarr (c : Dev nD) : FVec Ideal S22x512 .f32 := m ((c : Thread nD τ).loc main_arg3)
abbrev pearr (c : Dev nD) : FVec Ideal S4096x512 .f32 := m ((c : Thread nD τ).loc main_arg4)
abbrev aparr (c : Dev nD) : FVec Ideal S22x4096 .f32 := m ((c : Thread nD τ).loc main_arg5)
abbrev dparr (c : Dev nD) : FVec Ideal S22x22 .f32 := m ((c : Thread nD τ).loc main_arg6)

/-- The first window's array, as the call finds it, is the wrapper's token pairs. -/
theorem V_pairs (c : Dev nD) : (V m c main_v7 : S16x4096x2.Idx → BitVec 32) = Glue.pairs (xarr m c) := by
  dsimp only [V, V0]
  simp only [hostOps0, hostOps0_1, hostOps0_2, List.flatten_cons, List.flatten_nil, List.append_nil, List.cons_append,
    List.nil_append]
  after_results
  rfl

/-- The third window's array is the transposed probability table. -/
theorem V_apT (c : Dev nD) : (V m c main_v8 : S4096x22.Idx → EReal) = Glue.apT (F := Ideal) (aparr m c) := by
  dsimp only [V, V0]
  simp only [hostOps0, hostOps0_1, hostOps0_2, List.flatten_cons, List.flatten_nil, List.append_nil, List.cons_append,
    List.nil_append]
  after_results
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: every input window's block follows the output's (batch,
    tile), the tables' blocks are block 0, and the tile is the grid's first coordinate. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = win0_5.index t (1 : Fin 3) ∧ win0_1.index t (1 : Fin 2) = 0
    ∧ win0_2.index t (0 : Fin 2) = win0_5.index t (1 : Fin 3) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0
    ∧ (grid0.coords t (0 : Fin 2)).val = win0_5.index t (1 : Fin 3)
    ∧ win0_5.index t (0 : Fin 3) < 16 ∧ win0_5.index t (1 : Fin 3) < 2 :=
  (by decide +kernel : ∀ t : Fin grid0.N, _)

/-- Every (batch, tile) is some grid point's. -/
theorem idx_onto : ∀ (q0 : Fin 16) (q1 : Fin 2), ∃ t : Fin cfg0.N, win0_5.index t = ![q0.val, q1.val, 0] :=
  (by decide +kernel : ∀ (q0 : Fin 16) (q1 : Fin 2), ∃ t : Fin grid0.N, win0_5.index t = ![q0.val, q1.val, 0])

/-! ## What each grid point writes back -/

/-- An input block read at a block index is the window's array at the block's embedding of that index. -/
theorem emb0_eq (t : Fin cfg0.N) (r : Fin 2048) (k : Fin 2) (bt : Fin 16) (s : Fin 4096)
    (hb : bt.val = win0_5.index t (0 : Fin 3)) (hs : s.val = win0_5.index t (1 : Fin 3) * 2048 + r.val) :
    (((cfg0.win 0).blk t).view.emb (ix3 (0 : Fin 1) r k) : S16x4096x2.Idx) = ix3 bt s k := by
  obtain ⟨e00, e01, e02, -⟩ := idx_facts t
  funext a; apply Fin.ext
  match a with
  | ⟨0, _⟩ => show win0_0.index t (0 : Fin 3) * 1 + 1 * 0 = bt.val; omega
  | ⟨1, _⟩ => show win0_0.index t (1 : Fin 3) * 2048 + 1 * r.val = s.val; omega
  | ⟨2, _⟩ => show win0_0.index t (2 : Fin 3) * 2 + 1 * k.val = k.val; omega

theorem emb1_eq (t : Fin cfg0.N) (r : Fin 2048) (d : Fin 512) (s : Fin 4096)
    (hs : s.val = win0_5.index t (1 : Fin 3) * 2048 + r.val) :
    (((cfg0.win 1).blk t).view.emb (ix2 r d) : S4096x512.Idx) = ix2 s d := by
  obtain ⟨-, -, -, e10, e11, -⟩ := idx_facts t
  funext a; apply Fin.ext
  match a with
  | ⟨0, _⟩ => show win0_1.index t (0 : Fin 2) * 2048 + 1 * r.val = s.val; omega
  | ⟨1, _⟩ => show win0_1.index t (1 : Fin 2) * 512 + 1 * d.val = d.val; omega

theorem emb2_eq (t : Fin cfg0.N) (r : Fin 2048) (v : Fin 22) (s : Fin 4096)
    (hs : s.val = win0_5.index t (1 : Fin 3) * 2048 + r.val) :
    (((cfg0.win 2).blk t).view.emb (ix2 r v) : S4096x22.Idx) = ix2 s v := by
  obtain ⟨-, -, -, -, -, e20, e21, -⟩ := idx_facts t
  funext a; apply Fin.ext
  match a with
  | ⟨0, _⟩ => show win0_2.index t (0 : Fin 2) * 2048 + 1 * r.val = s.val; omega
  | ⟨1, _⟩ => show win0_2.index t (1 : Fin 2) * 22 + 1 * v.val = v.val; omega

theorem emb3_eq (t : Fin cfg0.N) (y : S22x512.Idx) :
    (((cfg0.win 3).blk t).view.emb y : S22x512.Idx) = y := by
  obtain ⟨-, -, -, -, -, -, -, e30, e31, -⟩ := idx_facts t
  funext a; apply Fin.ext
  match a with
  | ⟨0, _⟩ => show win0_3.index t (0 : Fin 2) * 22 + 1 * (y 0).val = (y 0).val; omega
  | ⟨1, _⟩ => show win0_3.index t (1 : Fin 2) * 512 + 1 * (y 1).val = (y 1).val; omega

theorem emb4_eq (t : Fin cfg0.N) (y : S22x22.Idx) :
    (((cfg0.win 4).blk t).view.emb y : S22x22.Idx) = y := by
  obtain ⟨-, -, -, -, -, -, -, -, -, e40, e41, -⟩ := idx_facts t
  funext a; apply Fin.ext
  match a with
  | ⟨0, _⟩ => show win0_4.index t (0 : Fin 2) * 22 + 1 * (y 0).val = (y 0).val; omega
  | ⟨1, _⟩ => show win0_4.index t (1 : Fin 2) * 22 + 1 * (y 1).val = (y 1).val; omega

theorem emb5_eq (t : Fin cfg0.N) (r : Fin 2048) (d : Fin 512) (bt : Fin 16) (s : Fin 4096)
    (hb : bt.val = win0_5.index t (0 : Fin 3)) (hs : s.val = win0_5.index t (1 : Fin 3) * 2048 + r.val) :
    (((cfg0.win 5).blk t).view.emb (ix3 (0 : Fin 1) r d) : S16x4096x512.Idx) = ix3 bt s d := by
  obtain ⟨-, -, -, -, -, -, -, -, -, -, -, e52, -⟩ := idx_facts t
  funext a; apply Fin.ext
  match a with
  | ⟨0, _⟩ => show win0_5.index t (0 : Fin 3) * 1 + 1 * 0 = bt.val; omega
  | ⟨1, _⟩ => show win0_5.index t (1 : Fin 3) * 2048 + 1 * r.val = s.val; omega
  | ⟨2, _⟩ => show win0_5.index t (2 : Fin 3) * 512 + 1 * d.val = d.val; omega

/-- WHAT POINT `t` WRITES BACK is block `t` of the embedding, for non-negative tokens. -/
theorem flushed5_eq (c : Dev nD) (hx : ∀ i, 0 ≤ (xarr m c i).toInt) (t : Fin cfg0.N) :
    (dats m 0 c).flushed 5 t = ((cfg0.win 5).blk t).view.read (Elt Ideal)
      (Cert.Spec.emb (xarr m c) (tokarr m c) (pearr m c) (aparr m c) (dparr m c)) := by
  show (cfg0.win 5).cut (grid0.coords t) ((dats m 0 c).after 5 t) = _
  rw [after0_5]
  unfold out0_5
  rw [View.canon_unit_zero hz3]
  simp only [View.ld_unit_zero (S := S1x2048x2) hz3, View.ld_unit_zero (S := S2048x512) hz2,
    View.ld_unit_zero (S := S2048x22) hz2, View.ld_unit_zero (S := S22x512) hz2, View.ld_unit_zero (S := S22x22) hz2]
  obtain ⟨-, -, -, -, -, -, -, -, -, -, -, -, eg, hb16, hs2⟩ := idx_facts t
  refine funext fun (j : S1x2048x512.Idx) => ?_
  obtain ⟨q, r, d, rfl⟩ : ∃ (q : Fin 1) (r : Fin 2048) (d : Fin 512), j = ix3 q r d := ⟨j 0, j 1, j 2, eq_ix3 j⟩
  obtain rfl : q = 0 := Subsingleton.elim _ _
  have h0 : ∀ y, ((iblk m c 0 t : Vec Ideal S1x2048x2 .i32) y).toNat < 22 := by
    intro y
    show ((V m c main_v7 : S16x4096x2.Idx → BitVec 32) (((cfg0.win 0).blk t).view.emb y)).toNat < 22
    rw [V_pairs]
    exact pairs_lt _ _
  refine (PayAt.pay_at (grid0.coords t) (iblk m c 0 t) (iblk m c 1 t) (iblk m c 2 t) (iblk m c 3 t) (iblk m c 4 t) h0 r d).trans ?_
  let bt : Fin 16 := ⟨win0_5.index t (0 : Fin 3), hb16⟩
  let si : Fin 2 := ⟨win0_5.index t (1 : Fin 3), hs2⟩
  let row_of : Fin 2048 → Fin 4096 := fun r => ⟨si.val * 2048 + r.val, by have := r.isLt; have := si.isLt; omega⟩
  have e3 : (iblk m c 3 t : Vec Ideal S22x512 .f32) = tokarr m c := by
    funext y
    show (V m c main_arg3 : S22x512.Idx → EReal) (((cfg0.win 3).blk t).view.emb y) = _
    rw [emb3_eq, V_main_arg3]
  have e4 : (iblk m c 4 t : Vec Ideal S22x22 .f32) = dparr m c := by
    funext y
    show (V m c main_arg6 : S22x22.Idx → EReal) (((cfg0.win 4).blk t).view.emb y) = _
    rw [emb4_eq, V_main_arg6]
  rw [eg, e3, e4]
  refine (blk_eq_emb (xarr m c) (tokarr m c) (pearr m c) (aparr m c) (dparr m c) hx bt si (iblk m c 0 t) (iblk m c 1 t)
    (iblk m c 2 t) row_of (fun _ => rfl) ?_ ?_ ?_ r d |>.trans ?_)
  · intro r k
    show (V m c main_v7 : S16x4096x2.Idx → BitVec 32) (((cfg0.win 0).blk t).view.emb (ix3 (0 : Fin 1) r k)) = _
    rw [V_pairs, emb0_eq t r k bt (row_of r) rfl rfl]
  · intro r d
    show (V m c main_arg4 : S4096x512.Idx → EReal) (((cfg0.win 1).blk t).view.emb (ix2 r d)) = _
    rw [emb1_eq t r d (row_of r) rfl, V_main_arg4]
  · intro r v
    show (V m c main_v8 : S4096x22.Idx → EReal) (((cfg0.win 2).blk t).view.emb (ix2 r v)) = _
    rw [V_apT, emb2_eq t r v (row_of r) rfl, Glue.apT_apply]
  · show _ = Cert.Spec.emb (xarr m c) (tokarr m c) (pearr m c) (aparr m c) (dparr m c)
      (((cfg0.win 5).blk t).view.emb (ix3 (0 : Fin 1) r d))
    rw [emb5_eq t r d bt (row_of r) rfl rfl]
    rfl

/-! ## The blocks tile the array -/

/-- An index of the array is in point `t`'s block iff each coordinate is in the block's range on its axis. -/
theorem mem_blk5 (t : Fin cfg0.N) (i : S16x4096x512.Idx) :
    i ∈ ((cfg0.win 5).blk t).view.set ↔ ∀ a : Fin 3, win0_5.index t a * S1x2048x512.size a ≤ (i a).val
      ∧ (i a).val < win0_5.index t a * S1x2048x512.size a + S1x2048x512.size a := by
  show i ∈ ((View.whole main_v9).slice (win0_5.rect t)).set ↔ _
  rw [View.set_slice_whole, Rect.mem_set_unit]
  exact Iff.rfl

/-- Every index of the output array is in some grid point's block. -/
theorem cover5 (i : S16x4096x512.Idx) :
    ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 512 := (i 2).isLt
  obtain ⟨t, ht⟩ := idx_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 512 ≤ (i 2).val ∧ (i 2).val < win0_5.index t (2 : Fin 3) * 512 + 512; omega

/-- THE OUTPUT ARRAY after the run is the embedding, for non-negative tokens. -/
theorem final5 (c : Dev nD) (hx : ∀ i, 0 ≤ (xarr m c i).toInt) :
    (dats m 0 c).arrAt 5 cfg0.N = Cert.Spec.emb (xarr m c) (tokarr m c) (pearr m c) (aparr m c) (dparr m c) :=
  (dats m 0 c).arrAt_eq_of_cover 5 _ (fun t _ => flushed5_eq m c hx t) cover5

/-! ## The wrapper's second result, after the call -/

/-- The lines after the call leave the second result at the wrapper's function of two arguments the call does not touch. -/
theorem tail17 (c : Dev nD) :
    Pipeline.afterTail₀ cfgs (dats m) 0 (V0 m) [hostOps1] c main_v17 = Glue.tail (F := Ideal) (x1arr m c) (exarr m c) := by
  unfold Pipeline.afterTail₀
  show StableHlo.after hostOps1 _ (Proc.devRef .tc main_v17) = _
  after_results
  rw [Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  have e1 : V0 m c (Proc.devRef .tc main_arg1) = m ((c : Thread nD τ).loc main_arg1) := V_main_arg1 m c
  have e2 : V0 m c (Proc.devRef .tc main_arg2) = m ((c : Thread nD τ).loc main_arg2) := V_main_arg2 m c
  rw [e1, e2]
  rfl

/-! ## The run, read -/

/-- For non-negative tokens every weakly fair execution of the idealized kernel's program terminates with the first result
    at the embedding, the second at the validity indicator joined with `ex`, and the arguments unchanged. -/
theorem run (hx : ∀ c i, 0 ≤ (xarr m c i).toInt) :
    θ_run defs (onTc (τ := τ) (main (F := Ideal))) ⟨m, fun _ => 0, ρ⟩ fun r => ∀ c : Dev nD,
      r.2.mem ((c.tc : Thread nD τ).loc main_v9) = Cert.Spec.emb (xarr m c) (tokarr m c) (pearr m c) (aparr m c) (dparr m c)
      ∧ r.2.mem ((c.tc : Thread nD τ).loc main_v17) = Cert.Spec.exon (x1arr m c) (exarr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 5).trans (final5 m c (hx c)),
      ((h c).2 main_v17 (Pipeline.mem_restRefs_of main_v17 (by decide) (by decide))).trans
        ((tail17 m c).trans (Glue.tail_eq _ _)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c)))⟩)
    (run_main m ρ)

end Cert.KernelIdeal.KerValue

end
-- ==== Proof.RefGather.lean ====
/-
  The reference's three gathers and its pad, each read at an index. A gather's start index is read as a signed integer and
  clamped so that the slice fits: into `[0, 21]` on a table axis of 22 (the row `Spec.row`), into `[0, 4095]` on the
  position axis (`Spec.pos`). The pad appends one column holding the padding value after the 4095 columns of its operand.
-/
import proofs.«421190_j5007931867395_3_alg».proof.Proof.Spec
import proofs.«421190_j5007931867395_3_alg».proof.Proof.Words
import proofs.«421190_j5007931867395_3_alg».proof.Proof.Gen.ReferenceIdeal
import Idealize.ShloMosaic.PureOps.ShapeOps
import Idealize.ShloMosaic.Lib.ValueIdx

noncomputable section

namespace Cert.ReferenceIdeal.RefGather

open Cert.ReferenceIdeal Cert.ReferenceIdeal.Gen Idealize.ShloMosaic Idealize.ShloMosaic.ValueIdx

/-- The row gather `tokw[idx]`: entry `(b, s, d)` is the table at (the clamped row of `idx[b, s, 0]`, `d`). -/
theorem gather_rows_apply {α : Type} (T : S22x512.Idx → α) (idx : IVec S16x4096x1 32) (b : Fin 16) (s : Fin 4096) (d : Fin 512) :
    Host.gather gather_S22x512_S16x4096x1_S16x4096x512_2_0_n_n_0_2_1512 T idx (ix3 b s d)
      = T (ix2 (Cert.Spec.row (idx (ix3 b s (0 : Fin 1)))) d) := by
  unfold Host.gather
  congr 1
  funext a
  refine Fin.ext ?_
  match a with
  | ⟨0, _⟩ =>
    -- the table's row axis: collapsed and start-indexed, so the operand coordinate is the clamped start alone
    show GatherDims.start gather_S22x512_S16x4096x1_S16x4096x512_2_0_n_n_0_2_1512 (ix3 b s d) idx 0
        + GatherDims.batchCoord gather_S22x512_S16x4096x1_S16x4096x512_2_0_n_n_0_2_1512 (ix3 b s d) 0
        + GatherDims.offCoord gather_S22x512_S16x4096x1_S16x4096x512_2_0_n_n_0_2_1512 (ix3 b s d) 0
        = min (idx (ix3 b s (0 : Fin 1))).toInt.toNat 21
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S22x512_S16x4096x1_S16x4096x512_2_0_n_n_0_2_1512).startIndexMap from List.mem_singleton.mpr rfl)]
    have hsi : (gather_S22x512_S16x4096x1_S16x4096x512_2_0_n_n_0_2_1512).siIdx (ix3 b s d)
        ⟨List.idxOf (0 : Fin 2) (gather_S22x512_S16x4096x1_S16x4096x512_2_0_n_n_0_2_1512).startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    -- the table's column axis: the one offset axis, not start-indexed, so the operand coordinate is the result's own
    show GatherDims.start gather_S22x512_S16x4096x1_S16x4096x512_2_0_n_n_0_2_1512 (ix3 b s d) idx 1
        + GatherDims.batchCoord gather_S22x512_S16x4096x1_S16x4096x512_2_0_n_n_0_2_1512 (ix3 b s d) 1
        + GatherDims.offCoord gather_S22x512_S16x4096x1_S16x4096x512_2_0_n_n_0_2_1512 (ix3 b s d) 1
        = d.val
    rw [GatherDims.batchCoord_eq_zero _ _ _ List.not_mem_nil]
    simp only [Nat.add_zero]
    unfold GatherDims.start
    rw [dif_neg (show (1 : Fin 2) ∉ (gather_S22x512_S16x4096x1_S16x4096x512_2_0_n_n_0_2_1512).startIndexMap by decide), Nat.zero_add]
    rfl

/-- The point gather `ap[i0, i1]`: entry `(b, s)` is the table at (the clamped row of `idx[b, s, 0]`, the clamped position of `idx[b, s, 1]`). -/
theorem gather_ap_apply {α : Type} (T : S22x4096.Idx → α) (idx : IVec S16x4096x2 32) (b : Fin 16) (s : Fin 4096) :
    Host.gather gather_S22x4096_S16x4096x2_S16x4096_n_01_n_n_01_2_11 T idx (ix2 b s)
      = T (ix2 (Cert.Spec.row (idx (ix3 b s (0 : Fin 2)))) (Cert.Spec.pos (idx (ix3 b s (1 : Fin 2))))) := by
  unfold Host.gather
  congr 1
  funext a
  refine Fin.ext ?_
  -- both table axes are collapsed and start-indexed: each operand coordinate is its clamped start alone
  match a with
  | ⟨0, _⟩ =>
    show GatherDims.start gather_S22x4096_S16x4096x2_S16x4096_n_01_n_n_01_2_11 (ix2 b s) idx 0
        + GatherDims.batchCoord gather_S22x4096_S16x4096x2_S16x4096_n_01_n_n_01_2_11 (ix2 b s) 0
        + GatherDims.offCoord gather_S22x4096_S16x4096x2_S16x4096_n_01_n_n_01_2_11 (ix2 b s) 0
        = min (idx (ix3 b s (0 : Fin 2))).toInt.toNat 21
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (0 : Fin 2) ∈ (gather_S22x4096_S16x4096x2_S16x4096_n_01_n_n_01_2_11).startIndexMap := by decide
    rw [dif_pos hm]
    have hsi : (gather_S22x4096_S16x4096x2_S16x4096_n_01_n_n_01_2_11).siIdx (ix2 b s)
        ⟨List.idxOf (0 : Fin 2) (gather_S22x4096_S16x4096x2_S16x4096_n_01_n_n_01_2_11).startIndexMap, List.idxOf_lt_length_iff.2 hm⟩ = ix3 b s (0 : Fin 2) := by
      funext c; refine Fin.ext ?_
      match c with
      | ⟨0, _⟩ => rfl
      | ⟨1, _⟩ => rfl
      | ⟨2, _⟩ => rfl
    rw [hsi]
    rfl
  | ⟨1, _⟩ =>
    show GatherDims.start gather_S22x4096_S16x4096x2_S16x4096_n_01_n_n_01_2_11 (ix2 b s) idx 1
        + GatherDims.batchCoord gather_S22x4096_S16x4096x2_S16x4096_n_01_n_n_01_2_11 (ix2 b s) 1
        + GatherDims.offCoord gather_S22x4096_S16x4096x2_S16x4096_n_01_n_n_01_2_11 (ix2 b s) 1
        = min (idx (ix3 b s (1 : Fin 2))).toInt.toNat 4095
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (1 : Fin 2) ∈ (gather_S22x4096_S16x4096x2_S16x4096_n_01_n_n_01_2_11).startIndexMap := by decide
    rw [dif_pos hm]
    have hsi : (gather_S22x4096_S16x4096x2_S16x4096_n_01_n_n_01_2_11).siIdx (ix2 b s)
        ⟨List.idxOf (1 : Fin 2) (gather_S22x4096_S16x4096x2_S16x4096_n_01_n_n_01_2_11).startIndexMap, List.idxOf_lt_length_iff.2 hm⟩ = ix3 b s (1 : Fin 2) := by
      funext c; refine Fin.ext ?_
      match c with
      | ⟨0, _⟩ => rfl
      | ⟨1, _⟩ => rfl
      | ⟨2, _⟩ => rfl
    rw [hsi]
    rfl

/-- The point gather `dp[i0, i1]`: entry `(b, s)` is the table at the two clamped rows of `idx[b, s, ·]`. -/
theorem gather_dp_apply {α : Type} (T : S22x22.Idx → α) (idx : IVec S16x4095x2 32) (b : Fin 16) (s : Fin 4095) :
    Host.gather gather_S22x22_S16x4095x2_S16x4095_n_01_n_n_01_2_11 T idx (ix2 b s)
      = T (ix2 (Cert.Spec.row (idx (ix3 b s (0 : Fin 2)))) (Cert.Spec.row (idx (ix3 b s (1 : Fin 2))))) := by
  unfold Host.gather
  congr 1
  funext a
  refine Fin.ext ?_
  -- both table axes are collapsed and start-indexed: each operand coordinate is its clamped start alone
  match a with
  | ⟨0, _⟩ =>
    show GatherDims.start gather_S22x22_S16x4095x2_S16x4095_n_01_n_n_01_2_11 (ix2 b s) idx 0
        + GatherDims.batchCoord gather_S22x22_S16x4095x2_S16x4095_n_01_n_n_01_2_11 (ix2 b s) 0
        + GatherDims.offCoord gather_S22x22_S16x4095x2_S16x4095_n_01_n_n_01_2_11 (ix2 b s) 0
        = min (idx (ix3 b s (0 : Fin 2))).toInt.toNat 21
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (0 : Fin 2) ∈ (gather_S22x22_S16x4095x2_S16x4095_n_01_n_n_01_2_11).startIndexMap := by decide
    rw [dif_pos hm]
    have hsi : (gather_S22x22_S16x4095x2_S16x4095_n_01_n_n_01_2_11).siIdx (ix2 b s)
        ⟨List.idxOf (0 : Fin 2) (gather_S22x22_S16x4095x2_S16x4095_n_01_n_n_01_2_11).startIndexMap, List.idxOf_lt_length_iff.2 hm⟩ = ix3 b s (0 : Fin 2) := by
      funext c; refine Fin.ext ?_
      match c with
      | ⟨0, _⟩ => rfl
      | ⟨1, _⟩ => rfl
      | ⟨2, _⟩ => rfl
    rw [hsi]
    rfl
  | ⟨1, _⟩ =>
    show GatherDims.start gather_S22x22_S16x4095x2_S16x4095_n_01_n_n_01_2_11 (ix2 b s) idx 1
        + GatherDims.batchCoord gather_S22x22_S16x4095x2_S16x4095_n_01_n_n_01_2_11 (ix2 b s) 1
        + GatherDims.offCoord gather_S22x22_S16x4095x2_S16x4095_n_01_n_n_01_2_11 (ix2 b s) 1
        = min (idx (ix3 b s (1 : Fin 2))).toInt.toNat 21
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    have hm : (1 : Fin 2) ∈ (gather_S22x22_S16x4095x2_S16x4095_n_01_n_n_01_2_11).startIndexMap := by decide
    rw [dif_pos hm]
    have hsi : (gather_S22x22_S16x4095x2_S16x4095_n_01_n_n_01_2_11).siIdx (ix2 b s)
        ⟨List.idxOf (1 : Fin 2) (gather_S22x22_S16x4095x2_S16x4095_n_01_n_n_01_2_11).startIndexMap, List.idxOf_lt_length_iff.2 hm⟩ = ix3 b s (1 : Fin 2) := by
      funext c; refine Fin.ext ?_
      match c with
      | ⟨0, _⟩ => rfl
      | ⟨1, _⟩ => rfl
      | ⟨2, _⟩ => rfl
    rw [hsi]
    rfl

/-- The pad by one trailing column: the operand on the first 4095 columns, the padding value on the last. -/
theorem pad_last_apply {α : Type} (x : S16x4095.Idx → α) (v : S_.Idx → α) (b : Fin 16) (s : Fin 4096) :
    pad S16x4096 ![0, 0] ![0, 1] ![0, 0] x v pads_S16x4095_S16x4096_000_010 h_S_ (ix2 b s)
      = if h : s.val < 4095 then x (ix2 b ⟨s.val, h⟩) else v ix0 := by
  unfold pad
  by_cases h : s.val < 4095
  · rw [dif_pos h]
    split
    · -- inside the operand: with no low padding and no interior padding the operand index is the result's own
      congr 1
      funext a
      refine Fin.ext ?_
      match a with
      | ⟨0, _⟩ =>
        show (b.val - 0) / (0 + 1) = b.val
        omega
      | ⟨1, _⟩ =>
        show (s.val - 0) / (0 + 1) = s.val
        omega
    · rename_i hin
      exfalso
      apply hin
      intro a
      match a with
      | ⟨0, _⟩ =>
        show 0 ≤ b.val ∧ (b.val - 0) % (0 + 1) = 0 ∧ (b.val - 0) / (0 + 1) < 16
        have := b.isLt
        omega
      | ⟨1, _⟩ =>
        show 0 ≤ s.val ∧ (s.val - 0) % (0 + 1) = 0 ∧ (s.val - 0) / (0 + 1) < 4095
        omega
  · rw [dif_neg h]
    split
    · -- the last column lies past the operand's 4095
      rename_i hin
      exfalso
      have h1 : (s.val - 0) / (0 + 1) < 4095 := (hin (1 : Fin 2)).2.2
      omega
    · exact congrArg v (eq_ix0 _)

end Cert.ReferenceIdeal.RefGather

end
-- ==== Proof.RefValue.lean ====
/-
  The reference's first result is the specification's: for non-negative tokens the wrap of a negative index is the
  identity, each gather reads its table at the clamped row, the zero pad after the last position is the specification's
  zero there, and the select on `x ≠ 0` is the specification's choice between `pe` and `0`.
-/
import proofs.«421190_j5007931867395_3_alg».proof.Proof.Spec
import proofs.«421190_j5007931867395_3_alg».proof.Proof.Words
import proofs.«421190_j5007931867395_3_alg».proof.Proof.RefGather
import proofs.«421190_j5007931867395_3_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Two rank-2 indices with the same coordinates are equal. -/
local macro "idx2" : tactic => `(tactic| (funext a; match a with | ⟨0, _⟩ => rfl | ⟨1, _⟩ => rfl))

/-! ## The token words: the wrap of a negative index leaves a non-negative word alone -/

/-- The wrapped token (for the row gather) is the token. -/
private theorem v11_at (x0 : IVec S16x4096 32) (hx : ∀ i, 0 ≤ (x0 i).toInt) (i : S16x4096.Idx) :
    val_main_v11 (F := Ideal) x0 i = x0 i := by
  rw [val_main_v11_apply, val_main_v8_apply, val_main_v10_apply, val_main_v7_apply, val_main_c_1_apply,
    val_main_v9_apply, val_main_c_2_apply]
  exact Cert.Spec.wrapneg_of_nonneg _ (hx i)

/-- The wrapped token (for the point gather into `ap`) is the token. -/
private theorem v25_at (x0 : IVec S16x4096 32) (hx : ∀ i, 0 ≤ (x0 i).toInt) (i : S16x4096.Idx) :
    val_main_v25 (F := Ideal) x0 i = x0 i := by
  rw [val_main_v25_apply, val_main_v22_apply, val_main_v24_apply, val_main_v21_apply, val_main_c_4_apply,
    val_main_v23_apply, val_main_c_5_apply]
  exact Cert.Spec.wrapneg_of_nonneg _ (hx i)

/-- The wrapped token of the first 4095 positions is the token there. -/
private theorem v42_at (x0 : IVec S16x4096 32) (hx : ∀ i, 0 ≤ (x0 i).toInt) (i : S16x4095.Idx) :
    val_main_v42 (F := Ideal) x0 i = x0 (idx_main_v36 i) := by
  rw [val_main_v42_apply, val_main_v39_apply, val_main_v41_apply, val_main_v36_apply, val_main_v38_apply,
    val_main_c_8_apply, val_main_v40_apply, val_main_c_9_apply]
  exact Cert.Spec.wrapneg_of_nonneg _ (hx _)

/-- The wrapped token of the last 4095 positions is the token there. -/
private theorem v47_at (x0 : IVec S16x4096 32) (hx : ∀ i, 0 ≤ (x0 i).toInt) (i : S16x4095.Idx) :
    val_main_v47 (F := Ideal) x0 i = x0 (idx_main_v37 i) := by
  rw [val_main_v47_apply, val_main_v44_apply, val_main_v46_apply, val_main_v37_apply, val_main_v43_apply,
    val_main_c_10_apply, val_main_v45_apply, val_main_c_11_apply]
  exact Cert.Spec.wrapneg_of_nonneg _ (hx _)

/-- The wrapped position number is the position number. -/
private theorem v30_at (z : Fin 1) (s : Fin 4096) :
    val_main_v30 (F := Ideal) (ix2 z s) = BitVec.ofNat 32 s.val := by
  rw [val_main_v30_apply, val_main_v27_apply, val_main_v29_apply, val_main_v20_apply, val_main_v19_apply,
    val_main_v26_apply, val_main_c_6_apply, val_main_v28_apply, val_main_c_7_apply]
  exact Cert.Spec.wrapneg_of_nonneg _ (Cert.Spec.toInt_ofNat_nonneg s)

/-! ## The row gather `tokw[x]` -/

/-- The row gather's start index at `(b, s, ·)` is the token. -/
private theorem v12_at (x0 : IVec S16x4096 32) (hx : ∀ i, 0 ≤ (x0 i).toInt) (b : Fin 16) (s : Fin 4096) (k : Fin 1) :
    val_main_v12 (F := Ideal) x0 (ix3 b s k) = x0 (ix2 b s) := by
  rw [val_main_v12_apply, v11_at x0 hx]
  exact congrArg x0 (by idx2)

/-- The row gather at `(b, s, d)`: the token table at the token's row. -/
private theorem v13_at (x0 : IVec S16x4096 32) (x3 : FVec Ideal S22x512 .f32) (hx : ∀ i, 0 ≤ (x0 i).toInt)
    (b : Fin 16) (s : Fin 4096) (d : Fin 512) :
    val_main_v13 (F := Ideal) x0 x3 (ix3 b s d) = x3 (ix2 (Cert.Spec.row (x0 (ix2 b s))) d) := by
  unfold val_main_v13
  rw [RefGather.gather_rows_apply, v12_at x0 hx]

/-! ## The point gather `ap[x, position]` -/

/-- The first column of the point gather's start indices is the token. -/
private theorem v34_at0 (x0 : IVec S16x4096 32) (hx : ∀ i, 0 ≤ (x0 i).toInt) (b : Fin 16) (s : Fin 4096) :
    val_main_v34 (F := Ideal) x0 (ix3 b s (0 : Fin 2)) = x0 (ix2 b s) := by
  unfold val_main_v34
  rw [concatenate_pair_apply_left (s₁ := S16x4096x1) (s₂ := S16x4096x1) (2 : Fin 3) _ _ concatenates_S16x4096x1_S16x4096x1_S16x4096x2_d2
    (ix3 b s (0 : Fin 2)) rfl (ix3 b s (0 : Fin 1))
    (fun c => match c with | ⟨0, _⟩ => rfl | ⟨1, _⟩ => rfl | ⟨2, _⟩ => rfl)]
  rw [val_main_v32_apply, v25_at x0 hx]
  exact congrArg x0 (by idx2)

/-- The second column of the point gather's start indices is the position number. -/
private theorem v34_at1 (x0 : IVec S16x4096 32) (b : Fin 16) (s : Fin 4096) :
    val_main_v34 (F := Ideal) x0 (ix3 b s (1 : Fin 2)) = BitVec.ofNat 32 s.val := by
  unfold val_main_v34
  rw [concatenate_pair_apply_right (s₁ := S16x4096x1) (s₂ := S16x4096x1) (2 : Fin 3) _ _ concatenates_S16x4096x1_S16x4096x1_S16x4096x2_d2
    (ix3 b s (1 : Fin 2)) rfl rfl (ix3 b s (0 : Fin 1))
    (fun c => match c with
      | ⟨0, _⟩ => fun _ => rfl
      | ⟨1, _⟩ => fun _ => rfl
      | ⟨2, _⟩ => fun h => absurd rfl h)
    rfl]
  rw [val_main_v33_apply, val_main_v31_apply]
  have e : idx_main_v31 (idx_main_v33 (ix3 b s (0 : Fin 1))) = ix2 (0 : Fin 1) s := by idx2
  rw [e]
  exact v30_at _ s

/-- The point gather into `ap` at `(b, s)`: the table at the token's row and the position `s`. -/
private theorem v35_at (x0 : IVec S16x4096 32) (x5 : FVec Ideal S22x4096 .f32) (hx : ∀ i, 0 ≤ (x0 i).toInt)
    (b : Fin 16) (s : Fin 4096) :
    val_main_v35 (F := Ideal) x0 x5 (ix2 b s) = x5 (ix2 (Cert.Spec.row (x0 (ix2 b s))) s) := by
  unfold val_main_v35
  rw [RefGather.gather_ap_apply, v34_at0 x0 hx, v34_at1, Cert.Spec.pos_ofNat]

/-! ## The point gather `dp[x, next x]` and its zero pad -/

/-- The first column of the pair gather's start indices is the token at the position. -/
private theorem v50_at0 (x0 : IVec S16x4096 32) (hx : ∀ i, 0 ≤ (x0 i).toInt) (b : Fin 16) (s : Fin 4095) :
    val_main_v50 (F := Ideal) x0 (ix3 b s (0 : Fin 2)) = x0 (ix2 b ⟨s.val, by omega⟩) := by
  unfold val_main_v50
  rw [concatenate_pair_apply_left (s₁ := S16x4095x1) (s₂ := S16x4095x1) (2 : Fin 3) _ _ concatenates_S16x4095x1_S16x4095x1_S16x4095x2_d2
    (ix3 b s (0 : Fin 2)) rfl (ix3 b s (0 : Fin 1))
    (fun c => match c with | ⟨0, _⟩ => rfl | ⟨1, _⟩ => rfl | ⟨2, _⟩ => rfl)]
  rw [val_main_v48_apply, v42_at x0 hx]
  exact congrArg x0 (by idx2)

/-- The second column of the pair gather's start indices is the token at the next position. -/
private theorem v50_at1 (x0 : IVec S16x4096 32) (hx : ∀ i, 0 ≤ (x0 i).toInt) (b : Fin 16) (s : Fin 4095) :
    val_main_v50 (F := Ideal) x0 (ix3 b s (1 : Fin 2)) = x0 (ix2 b ⟨s.val + 1, by omega⟩) := by
  unfold val_main_v50
  rw [concatenate_pair_apply_right (s₁ := S16x4095x1) (s₂ := S16x4095x1) (2 : Fin 3) _ _ concatenates_S16x4095x1_S16x4095x1_S16x4095x2_d2
    (ix3 b s (1 : Fin 2)) rfl rfl (ix3 b s (0 : Fin 1))
    (fun c => match c with
      | ⟨0, _⟩ => fun _ => rfl
      | ⟨1, _⟩ => fun _ => rfl
      | ⟨2, _⟩ => fun h => absurd rfl h)
    rfl]
  rw [val_main_v49_apply, v47_at x0 hx]
  refine congrArg x0 ?_
  funext a
  match a with
  | ⟨0, _⟩ => rfl
  | ⟨1, _⟩ => exact Fin.ext (Nat.add_comm 1 s.val)

/-- The pair gather at `(b, s)`, `s < 4095`: the table at the rows of the token and of the next token. -/
private theorem v51_at (x0 : IVec S16x4096 32) (x6 : FVec Ideal S22x22 .f32) (hx : ∀ i, 0 ≤ (x0 i).toInt)
    (b : Fin 16) (s : Fin 4095) :
    val_main_v51 (F := Ideal) x0 x6 (ix2 b s)
      = x6 (ix2 (Cert.Spec.row (x0 (ix2 b ⟨s.val, by omega⟩))) (Cert.Spec.row (x0 (ix2 b ⟨s.val + 1, by omega⟩)))) := by
  unfold val_main_v51
  rw [RefGather.gather_dp_apply, v50_at0 x0 hx, v50_at1 x0 hx]

/-- The padding value is the extended real zero. -/
private theorem padv_at : val_main_call1_v0 (F := Ideal) ix0 = 0 := by
  rw [val_main_call1_v0_apply, val_main_c_12_apply]
  show (((0#32 : BitVec 32).toInt : ℝ) : EReal) = 0
  simp

/-- The padded pair gather at `(b, s)`: the pair gather below the last position, zero at it. -/
private theorem v52_at (x0 : IVec S16x4096 32) (x6 : FVec Ideal S22x22 .f32) (hx : ∀ i, 0 ≤ (x0 i).toInt)
    (b : Fin 16) (s : Fin 4096) :
    val_main_v52 (F := Ideal) x0 x6 (ix2 b s)
      = if h : s.val + 1 < 4096 then
          x6 (ix2 (Cert.Spec.row (x0 (ix2 b s))) (Cert.Spec.row (x0 (ix2 b ⟨s.val + 1, h⟩))))
        else (0 : EReal) := by
  unfold val_main_v52
  rw [RefGather.pad_last_apply]
  by_cases h : s.val < 4095
  · rw [dif_pos h, dif_pos (show s.val + 1 < 4096 by omega), v51_at x0 x6 hx]
  · rw [dif_neg h, dif_neg (show ¬ s.val + 1 < 4096 by omega)]
    exact padv_at

/-! ## The select on `x ≠ 0` and the sum of the two probabilities -/

/-- The select at `(b, s, d)`: zero where the token is zero, the positional array elsewhere. -/
private theorem v18_at (x0 : IVec S16x4096 32) (x4 : FVec Ideal S4096x512 .f32) (b : Fin 16) (s : Fin 4096) (d : Fin 512) :
    val_main_v18 (F := Ideal) x0 x4 (ix3 b s d) = if x0 (ix2 b s) = 0#32 then (0 : EReal) else x4 (ix2 s d) := by
  rw [val_main_v18_apply, val_main_call0_v1_apply, val_main_v16_apply, val_main_v15_apply, val_main_v14_apply,
    val_main_c_3_apply, val_main_call0_v2_apply, val_main_v17_apply, val_main_call0_v3_apply,
    val_main_call0_v0_apply, val_main_cst_apply]
  have e1 : idx_main_v16 (idx_main_call0_v1 (ix3 b s d)) = ix2 b s := by idx2
  have e2 : idx_main_v17 (idx_main_call0_v2 (ix3 b s d)) = ix2 s d := by idx2
  rw [e1, e2, Cert.Spec.cmpi_ne_bit]
  by_cases h : x0 (ix2 b s) = 0#32
  · rw [if_pos h, if_pos h, select_zero]
    exact Ideal.ofBits_zero_f32
  · rw [if_neg h, if_neg h, select_one]

/-- The broadcast sum at `(b, s, d)`: the two probabilities of the specification. -/
private theorem v56_at (x0 : IVec S16x4096 32) (x5 : FVec Ideal S22x4096 .f32) (x6 : FVec Ideal S22x22 .f32)
    (hx : ∀ i, 0 ≤ (x0 i).toInt) (b : Fin 16) (s : Fin 4096) (d : Fin 512) :
    val_main_v56 (F := Ideal) x0 x5 x6 (ix3 b s d)
      = x5 (ix2 (Cert.Spec.row (x0 (ix2 b s))) s)
        + (if h : s.val + 1 < 4096 then
            x6 (ix2 (Cert.Spec.row (x0 (ix2 b s))) (Cert.Spec.row (x0 (ix2 b ⟨s.val + 1, h⟩))))
          else (0 : EReal)) := by
  rw [val_main_v56_apply, val_main_v55_apply, val_main_v54_apply, val_main_v53_apply]
  have e1 : idx_main_v54 (idx_main_v56 (ix3 b s d)) = ix2 b s := by idx2
  have e2 : idx_main_v53 (idx_main_v56 (ix3 b s d)) = ix2 b s := by idx2
  rw [e1, e2, v35_at x0 x5 hx, v52_at x0 x6 hx]
  rfl

/-- The reference's first result is the embedding. -/
theorem ref_emb (x0 : IVec S16x4096 32) (x3 : FVec Ideal S22x512 .f32) (x4 : FVec Ideal S4096x512 .f32)
    (x5 : FVec Ideal S22x4096 .f32) (x6 : FVec Ideal S22x22 .f32) (hx : ∀ i, 0 ≤ (x0 i).toInt) :
    val_main_v58 (F := Ideal) x0 x3 x4 x5 x6 = Cert.Spec.emb x0 x3 x4 x5 x6 := by
  funext j
  obtain ⟨b, s, d, rfl⟩ : ∃ b s d, j = ix3 b s d := ⟨j 0, j 1, j 2, eq_ix3 j⟩
  show _ = Cert.Spec.embAt x0 x3 x4 x5 x6 b s d
  unfold Cert.Spec.embAt
  rw [val_main_v58_apply, val_main_v57_apply, v13_at x0 x3 hx, v18_at, v56_at x0 x5 x6 hx]
  rfl

end Cert.ReferenceIdeal.RefValue

end
-- ==== Proof.RefExon.lean ====
/-
  The reference's second result is the specification's: the validity indicator of `x1` widened to a float, joined with `ex`.
-/
import proofs.«421190_j5007931867395_3_alg».proof.Proof.Spec
import proofs.«421190_j5007931867395_3_alg».proof.Proof.Words
import proofs.«421190_j5007931867395_3_alg».proof.Proof.Gen.ReferenceIdeal.Read
import Idealize.ShloMosaic.Lib.ValueIdx
import Idealize.ShloMosaic.Lib.Pipeline.Value
import Idealize.ShloMosaic.Lib.ValueLayout

noncomputable section

namespace Cert.ReferenceIdeal.RefExon

open Cert.ReferenceIdeal Cert.ReferenceIdeal.Gen Cert.ReferenceIdeal.Read Idealize.ShloMosaic Idealize.ShloMosaic.ValueIdx

/-- The widened validity column at `(b, s, 0)` is the indicator of `1 ≤ x1[b, s] ≤ 21`. -/
private theorem indicator_apply (x1 : IVec S16x4096 32) (b : Fin 16) (s : Fin 4096) :
    val_main_v6 (F := Ideal) x1 (ix3 b s (0 : Fin 1))
      = if 1 ≤ (x1 (ix2 b s)).toInt ∧ (x1 (ix2 b s)).toInt ≤ 21 then (1 : EReal) else 0 := by
  have hidx : idx_main_v5 (ix3 b s (0 : Fin 1)) = ix2 b s := by
    funext a
    match a with
    | ⟨0, _⟩ => rfl
    | ⟨1, _⟩ => rfl
  rw [val_main_v6_apply, val_main_v5_apply, hidx, val_main_v4_apply, val_main_v1_apply, val_main_v3_apply,
    val_main_v0_apply, val_main_v2_apply, val_main_c_apply, val_main_c_0_apply, Cert.Spec.valid_bit]
  by_cases hv : 1 ≤ (x1 (ix2 b s)).toInt ∧ (x1 (ix2 b s)).toInt ≤ 21
  · rw [if_pos hv, if_pos hv]
    show (((1#1 : BitVec 1).toNat : ℝ) : EReal) = 1
    norm_num
  · rw [if_neg hv, if_neg hv]
    show (((0#1 : BitVec 1).toNat : ℝ) : EReal) = 0
    norm_num

/-- The reference's second result is the specification's. -/
theorem ref_exon (x1 : IVec S16x4096 32) (x2 : FVec Ideal S16x4096x1 .f32) :
    val_main_v59 (F := Ideal) x1 x2 = Cert.Spec.exon x1 x2 := by
  funext j
  obtain ⟨b, s, k, rfl⟩ : ∃ b s k, j = ix3 b s k := ⟨j 0, j 1, j 2, eq_ix3 j⟩
  show val_main_v59 (F := Ideal) x1 x2 (ix3 b s k) = Cert.Spec.exonAt x1 x2 b s k
  unfold val_main_v59 Cert.Spec.exonAt
  match k with
  | ⟨0, _⟩ =>
    rw [if_pos rfl]
    refine (concatenate_pair_apply_left (t := S16x4096x2) (s₁ := S16x4096x1) (s₂ := S16x4096x1) (2 : Fin 3) _ _ _ _ rfl
      (ix3 b s (0 : Fin 1)) fun a => by
        match a with
        | ⟨0, _⟩ => rfl
        | ⟨1, _⟩ => rfl
        | ⟨2, _⟩ => rfl).trans ?_
    exact indicator_apply x1 b s
  | ⟨1, _⟩ =>
    rw [if_neg (by exact Nat.one_ne_zero)]
    exact concatenate_pair_apply_right (t := S16x4096x2) (s₁ := S16x4096x1) (s₂ := S16x4096x1) (2 : Fin 3) _ _ _ _ rfl rfl
      (ix3 b s (0 : Fin 1))
      (fun a ha => by
        match a with
        | ⟨0, _⟩ => rfl
        | ⟨1, _⟩ => rfl
        | ⟨2, _⟩ => exact absurd rfl ha)
      rfl

end Cert.ReferenceIdeal.RefExon

end
-- ==== Proof.lean ====
/-
  The certificate of the token-embedding kernel against its jnp reference, over the extended reals, for non-negative
  tokens (the precondition's last conjunct).

  Both programs compute, at `(b, s, d)`,
      tokw[row x[b,s], d] + (x[b,s] = 0 ? 0 : pe[s,d]) · (ap[row x[b,s], s] + (s + 1 < 4096 ? dp[row x[b,s], row x[b,s+1]] : 0)),
  `row` being the signed clamp into `[0, 21]`, and, as second result, the indicator of `1 ≤ x1[b,s] ≤ 21` joined with `ex`.
  The kernel reaches the table rows by one-hot products and one-hot weighted row sums over tokens its wrapper has clamped
  (at the extended reals a product with an exact 0 is 0 and with an exact 1 the other factor, so a one-hot sum is one
  entry, whatever the table holds); the reference by gathers, whose start indices the model clamps the same way, after
  jnp's wrap of a negative index — the identity on non-negative tokens, which is where the precondition is used (the
  kernel clamps a negative token to 0 where the reference wraps it, and the kernel's padding mask reads the clamped token).
  The frames of the two kernel programs are the generated frame certificates; the reference's frame is its generated run with the results dropped; the ideal pass rewrote nothing.
-/
import proofs.«421190_j5007931867395_3_alg».proof.Defs
import proofs.«421190_j5007931867395_3_alg».proof.Proof.Gen.Kernel
import proofs.«421190_j5007931867395_3_alg».proof.Proof.Gen.Kernel.Skeleton
import proofs.«421190_j5007931867395_3_alg».proof.Proof.Gen.Kernel.Launch
import proofs.«421190_j5007931867395_3_alg».proof.Proof.Gen.Kernel.Points
import proofs.«421190_j5007931867395_3_alg».proof.Proof.KernelFrame
import proofs.«421190_j5007931867395_3_alg».proof.Proof.Gen.KernelIdeal
import proofs.«421190_j5007931867395_3_alg».proof.Proof.Gen.KernelIdeal.Skeleton
import proofs.«421190_j5007931867395_3_alg».proof.Proof.Gen.KernelIdeal.Launch
import proofs.«421190_j5007931867395_3_alg».proof.Proof.Gen.KernelIdeal.Points
import proofs.«421190_j5007931867395_3_alg».proof.Proof.KernelIdealFrame
import proofs.«421190_j5007931867395_3_alg».proof.Proof.Gen.ReferenceIdeal
import proofs.«421190_j5007931867395_3_alg».proof.Proof.Gen.ReferenceIdeal.Run
import proofs.«421190_j5007931867395_3_alg».proof.Proof.Gen.ReferenceIdeal.Read
import proofs.«421190_j5007931867395_3_alg».proof.Proof.Gen.Pre_finite_inputs
import proofs.«421190_j5007931867395_3_alg».proof.Proof.Spec
import proofs.«421190_j5007931867395_3_alg».proof.Proof.Words
import proofs.«421190_j5007931867395_3_alg».proof.Proof.PreDecode
import proofs.«421190_j5007931867395_3_alg».proof.Proof.KerValue
import proofs.«421190_j5007931867395_3_alg».proof.Proof.RefValue
import proofs.«421190_j5007931867395_3_alg».proof.Proof.RefExon
import Idealize.ShloMosaic.Adequacy
import Idealize.ShloMosaic.Init

noncomputable section

namespace Cert.Proof

open Idealize.ShloMosaic Idealize.SL.Sem Cert.Kernel

/-- The word-level kernel runs and keeps its arguments: the generated frame certificate. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments, with every token non-negative, both idealized programs end with the first
    result at the embedding and the second at the validity indicator joined with `ex`. -/
theorem algebraic : Cert.algebraic_KernelIdeal_ReferenceIdeal := by
  intro m ρ m' ρ' hpre hagree
  have hx : ∀ c i, 0 ≤ (Cert.KernelIdeal.KerValue.xarr m c i).toInt := fun c =>
    Cert.Pre_finite_inputs.Decode.nonneg_of_pre (F := Ideal) _ _ _ _ _ _ _ (hpre c)
  refine ⟨_, _, Cert.KernelIdeal.KerValue.run m ρ hx, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    rw [Cert.ReferenceIdeal.Read.val_main_v58_eq, e0, e3, e4, e5, e6]
    exact Cert.ReferenceIdeal.RefValue.ref_emb _ _ _ _ _ (hx c)
  · obtain ⟨e0, e1, e2, e3, e4, e5, e6⟩ := hagree c
    rw [Cert.ReferenceIdeal.Read.val_main_v59_eq, e1, e2]
    exact Cert.ReferenceIdeal.RefExon.ref_exon _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
